-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)) →
    ∃ (v0 : (c : Dev Cert.KernelIdeal.nD) → Buf (Elt Ideal) ((c.tc : Thread Cert.KernelIdeal.nD Cert.KernelIdeal.τ).loc Cert.KernelIdeal.main_v10_0)) (v1 : (c : Dev Cert.KernelIdeal.nD) → Buf (Elt Ideal) ((c.tc : Thread Cert.KernelIdeal.nD Cert.KernelIdeal.τ).loc Cert.KernelIdeal.main_v10_1)) (v2 : (c : Dev Cert.KernelIdeal.nD) → Buf (Elt Ideal) ((c.tc : Thread Cert.KernelIdeal.nD Cert.KernelIdeal.τ).loc Cert.KernelIdeal.main_v10_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10_0) = v0 c
          ∧ r.2.mem ((c.tc : Thread Cert.KernelIdeal.nD Cert.KernelIdeal.τ).loc Cert.KernelIdeal.main_v10_1) = v1 c
          ∧ r.2.mem ((c.tc : Thread Cert.KernelIdeal.nD Cert.KernelIdeal.τ).loc Cert.KernelIdeal.main_v10_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_v52) = v1 c
          ∧ r.2.mem ((c.tc : Thread Cert.ReferenceIdeal.nD Cert.ReferenceIdeal.τ).loc Cert.ReferenceIdeal.main_v19) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x1024 : Shape := ⟨2, ![32768, 1024]⟩
abbrev S512x512 : Shape := ⟨2, ![512, 512]⟩
abbrev S32768x512 : Shape := ⟨2, ![32768, 512]⟩
abbrev S1024x512 : Shape := ⟨2, ![1024, 512]⟩
abbrev S512 : Shape := ⟨1, ![512]⟩
abbrev S512x1 : Shape := ⟨2, ![512, 1]⟩
abbrev S1 : Shape := ⟨1, ![1]⟩
abbrev S_ : Shape := ⟨0, ![]⟩

class Facts : Prop where
  bcast_S_S32768x1024 : S_.BroadcastsInDim S32768x1024 (![] : Fin 0 → Fin S32768x1024.rank)
  reducesTo_S32768x1024_S_d0_1 : S32768x1024.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S32768x512 : S_.BroadcastsInDim S32768x512 (![] : Fin 0 → Fin S32768x512.rank)
  reducesTo_S32768x512_S_d0_1 : S32768x512.ReducesTo [0, 1] S_
  bcast_S_S1024x512 : S_.BroadcastsInDim S1024x512 (![] : Fin 0 → Fin S1024x512.rank)
  reducesTo_S1024x512_S_d0_1 : S1024x512.ReducesTo [0, 1] S_
  bcast_S_S512 : S_.BroadcastsInDim S512 (![] : Fin 0 → Fin S512.rank)
  reducesTo_S512_S_d0 : S512.ReducesTo [0] S_
  bcast_S_S512x1 : S_.BroadcastsInDim S512x1 (![] : Fin 0 → Fin S512x1.rank)
  reducesTo_S512x1_S_d0_1 : S512x1.ReducesTo [0, 1] S_
  bcast_S_S1 : S_.BroadcastsInDim S1 (![] : Fin 0 → Fin S1.rank)
  reducesTo_S1_S_d0 : S1.ReducesTo [0] S_

variable [Facts]

def fn_part6 {F : FTy → Type} [FloatOps F] (main_arg21 : FVec F S512 .f32) (main_arg22 : FVec F S512x512 .f32) (main_arg23 : FVec F S512 .f32) (main_v98 : IVec S_ 1) (main_v101 : IVec S512x512 1) (main_c_39 : IVec S_ 1) : IVec S_ 1 :=
  let main_v102 : IVec S_ 1 := (fun x v => Host.reduce IntOp.andi x v reducesTo_S512x512_S_d0_1 h_S_) main_v101 main_c_39
  let main_v103 : IVec S_ 1 := andi main_v98 main_v102
  let main_v104 : FVec F S512 .f32 := Host.absf main_arg21
  let main_cst_40 : FVec F S_ .f32 := constant S_ .f32 0x7F800000#32
  let main_v105 : FVec F S512 .f32 := broadcastInDim S512 ![] bcast_S_S512 main_cst_40
  let main_v106 : IVec S512 1 := cmpf .olt main_v104 main_v105
  let main_c_41 : IVec S_ 1 := constantI S_ 1 1#1
  let main_v107 : IVec S_ 1 := (fun x v => Host.reduce IntOp.andi x v reducesTo_S512_S_d0 h_S_) main_v106 main_c_41
  let main_v108 : IVec S_ 1 := andi main_v103 main_v107
  let main_v109 : FVec F S512x512 .f32 := Host.absf main_arg22
  let main_cst_42 : FVec F S_ .f32 := constant S_ .f32 0x7F800000#32
  let main_v110 : FVec F S512x512 .f32 := broadcastInDim S512x512 ![] bcast_S_S512x512 main_cst_42
  let main_v111 : IVec S512x512 1 := cmpf .olt main_v109 main_v110
  let main_c_43 : IVec S_ 1 := constantI S_ 1 1#1
  let main_v112 : IVec S_ 1 := (fun x v => Host.reduce IntOp.andi x v reducesTo_S512x512_S_d0_1 h_S_) main_v111 main_c_43
  let main_v113 : IVec S_ 1 := andi main_v108 main_v112
  let main_v114 : FVec F S512 .f32 := Host.absf main_arg23
  let main_cst_44 : FVec F S_ .f32 := constant S_ .f32 0x7F800000#32
  let main_v115 : FVec F S512 .f32 := broadcastInDim S512 ![] bcast_S_S512 main_cst_44
  let main_v116 : IVec S512 1 := cmpf .olt main_v114 main_v115
  let main_c_45 : IVec S_ 1 := constantI S_ 1 1#1
  let main_v117 : IVec S_ 1 := (fun x v => Host.reduce IntOp.andi x v reducesTo_S512_S_d0 h_S_) main_v116 main_c_45
  let main_v118 : IVec S_ 1 := andi main_v113 main_v117
  main_v118

def fn_part5 {F : FTy → Type} [FloatOps F] (main_arg18 : FVec F S512x1 .f32) (main_arg19 : FVec F S1 .f32) (main_arg20 : FVec F S512x512 .f32) (main_arg21 : FVec F S512 .f32) (main_arg22 : FVec F S512x512 .f32) (main_arg23 : FVec F S512 .f32) (main_v83 : IVec S_ 1) (main_v84 : FVec F S1 .f32) (main_cst_32 : FVec F S_ .f32) : IVec S_ 1 :=
  let main_v85 : FVec F S1 .f32 := broadcastInDim S1 ![] bcast_S_S1 main_cst_32
  let main_v86 : IVec S1 1 := cmpf .olt main_v84 main_v85
  let main_c_33 : IVec S_ 1 := constantI S_ 1 1#1
  let main_v87 : IVec S_ 1 := (fun x v => Host.reduce IntOp.andi x v reducesTo_S1_S_d0 h_S_) main_v86 main_c_33
  let main_v88 : IVec S_ 1 := andi main_v83 main_v87
  let main_v89 : FVec F S512x1 .f32 := Host.absf main_arg18
  let main_cst_34 : FVec F S_ .f32 := constant S_ .f32 0x7F800000#32
  let main_v90 : FVec F S512x1 .f32 := broadcastInDim S512x1 ![] bcast_S_S512x1 main_cst_34
  let main_v91 : IVec S512x1 1 := cmpf .olt main_v89 main_v90
  let main_c_35 : IVec S_ 1 := constantI S_ 1 1#1
  let main_v92 : IVec S_ 1 := (fun x v => Host.reduce IntOp.andi x v reducesTo_S512x1_S_d0_1 h_S_) main_v91 main_c_35
  let main_v93 : IVec S_ 1 := andi main_v88 main_v92
  let main_v94 : FVec F S1 .f32 := Host.absf main_arg19
  let main_cst_36 : FVec F S_ .f32 := constant S_ .f32 0x7F800000#32
  let main_v95 : FVec F S1 .f32 := broadcastInDim S1 ![] bcast_S_S1 main_cst_36
  let main_v96 : IVec S1 1 := cmpf .olt main_v94 main_v95
  let main_c_37 : IVec S_ 1 := constantI S_ 1 1#1
  let main_v97 : IVec S_ 1 := (fun x v => Host.reduce IntOp.andi x v reducesTo_S1_S_d0 h_S_) main_v96 main_c_37
  let main_v98 : IVec S_ 1 := andi main_v93 main_v97
  let main_v99 : FVec F S512x512 .f32 := Host.absf main_arg20
  let main_cst_38 : FVec F S_ .f32 := constant S_ .f32 0x7F800000#32
  let main_v100 : FVec F S512x512 .f32 := broadcastInDim S512x512 ![] bcast_S_S512x512 main_cst_38
  let main_v101 : IVec S512x512 1 := cmpf .olt main_v99 main_v100
  let main_c_39 : IVec S_ 1 := constantI S_ 1 1#1
  fn_part6 (F := F) main_arg21 main_arg22 main_arg23 main_v98 main_v101 main_c_39

def fn_part4 {F : FTy → Type} [FloatOps F] (main_arg14 : FVec F S512x1 .f32) (main_arg15 : FVec F S1 .f32) (main_arg16 : FVec F S512x1 .f32) (main_arg17 : FVec F S1 .f32) (main_arg18 : FVec F S512x1 .f32) (main_arg19 : FVec F S1 .f32) (main_arg20 : FVec F S512x512 .f32) (main_arg21 : FVec F S512 .f32) (main_arg22 : FVec F S512x512 .f32) (main_arg23 : FVec F S512 .f32) (main_v63 : IVec S_ 1) (main_v67 : IVec S_ 1) : IVec S_ 1 :=
  let main_v68 : IVec S_ 1 := andi main_v63 main_v67
  let main_v69 : FVec F S512x1 .f32 := Host.absf main_arg14
  let main_cst_26 : FVec F S_ .f32 := constant S_ .f32 0x7F800000#32
  let main_v70 : FVec F S512x1 .f32 := broadcastInDim S512x1 ![] bcast_S_S512x1 main_cst_26
  let main_v71 : IVec S512x1 1 := cmpf .olt main_v69 main_v70
  let main_c_27 : IVec S_ 1 := constantI S_ 1 1#1
  let main_v72 : IVec S_ 1 := (fun x v => Host.reduce IntOp.andi x v reducesTo_S512x1_S_d0_1 h_S_) main_v71 main_c_27
  let main_v73 : IVec S_ 1 := andi main_v68 main_v72
  let main_v74 : FVec F S1 .f32 := Host.absf main_arg15
  let main_cst_28 : FVec F S_ .f32 := constant S_ .f32 0x7F800000#32
  let main_v75 : FVec F S1 .f32 := broadcastInDim S1 ![] bcast_S_S1 main_cst_28
  let main_v76 : IVec S1 1 := cmpf .olt main_v74 main_v75
  let main_c_29 : IVec S_ 1 := constantI S_ 1 1#1
  let main_v77 : IVec S_ 1 := (fun x v => Host.reduce IntOp.andi x v reducesTo_S1_S_d0 h_S_) main_v76 main_c_29
  let main_v78 : IVec S_ 1 := andi main_v73 main_v77
  let main_v79 : FVec F S512x1 .f32 := Host.absf main_arg16
  let main_cst_30 : FVec F S_ .f32 := constant S_ .f32 0x7F800000#32
  let main_v80 : FVec F S512x1 .f32 := broadcastInDim S512x1 ![] bcast_S_S512x1 main_cst_30
  let main_v81 : IVec S512x1 1 := cmpf .olt main_v79 main_v80
  let main_c_31 : IVec S_ 1 := constantI S_ 1 1#1
  let main_v82 : IVec S_ 1 := (fun x v => Host.reduce IntOp.andi x v reducesTo_S512x1_S_d0_1 h_S_) main_v81 main_c_31
  let main_v83 : IVec S_ 1 := andi main_v78 main_v82
  let main_v84 : FVec F S1 .f32 := Host.absf main_arg17
  let main_cst_32 : FVec F S_ .f32 := constant S_ .f32 0x7F800000#32
  fn_part5 (F := F) main_arg18 main_arg19 main_arg20 main_arg21 main_arg22 main_arg23 main_v83 main_v84 main_cst_32

def fn_part3 {F : FTy → Type} [FloatOps F] (main_arg11 : FVec F S512 .f32) (main_arg12 : FVec F S512x512 .f32) (main_arg13 : FVec F S512 .f32) (main_arg14 : FVec F S512x1 .f32) (main_arg15 : FVec F S1 .f32) (main_arg16 : FVec F S512x1 .f32) (main_arg17 : FVec F S1 .f32) (main_arg18 : FVec F S512x1 .f32) (main_arg19 : FVec F S1 .f32) (main_arg20 : FVec F S512x512 .f32) (main_arg21 : FVec F S512 .f32) (main_arg22 : FVec F S512x512 .f32) (main_arg23 : FVec F S512 .f32) (main_v48 : IVec S_ 1) (main_v49 : FVec F S512x512 .f32) (main_v50 : FVec F S512x512 .f32) : IVec S_ 1 :=
  let main_v51 : IVec S512x512 1 := cmpf .olt main_v49 main_v50
  let main_c_19 : IVec S_ 1 := constantI S_ 1 1#1
  let main_v52 : IVec S_ 1 := (fun x v => Host.reduce IntOp.andi x v reducesTo_S512x512_S_d0_1 h_S_) main_v51 main_c_19
  let main_v53 : IVec S_ 1 := andi main_v48 main_v52
  let main_v54 : FVec F S512 .f32 := Host.absf main_arg11
  let main_cst_20 : FVec F S_ .f32 := constant S_ .f32 0x7F800000#32
  let main_v55 : FVec F S512 .f32 := broadcastInDim S512 ![] bcast_S_S512 main_cst_20
  let main_v56 : IVec S512 1 := cmpf .olt main_v54 main_v55
  let main_c_21 : IVec S_ 1 := constantI S_ 1 1#1
  let main_v57 : IVec S_ 1 := (fun x v => Host.reduce IntOp.andi x v reducesTo_S512_S_d0 h_S_) main_v56 main_c_21
  let main_v58 : IVec S_ 1 := andi main_v53 main_v57
  let main_v59 : FVec F S512x512 .f32 := Host.absf main_arg12
  let main_cst_22 : FVec F S_ .f32 := constant S_ .f32 0x7F800000#32
  let main_v60 : FVec F S512x512 .f32 := broadcastInDim S512x512 ![] bcast_S_S512x512 main_cst_22
  let main_v61 : IVec S512x512 1 := cmpf .olt main_v59 main_v60
  let main_c_23 : IVec S_ 1 := constantI S_ 1 1#1
  let main_v62 : IVec S_ 1 := (fun x v => Host.reduce IntOp.andi x v reducesTo_S512x512_S_d0_1 h_S_) main_v61 main_c_23
  let main_v63 : IVec S_ 1 := andi main_v58 main_v62
  let main_v64 : FVec F S512 .f32 := Host.absf main_arg13
  let main_cst_24 : FVec F S_ .f32 := constant S_ .f32 0x7F800000#32
  let main_v65 : FVec F S512 .f32 := broadcastInDim S512 ![] bcast_S_S512 main_cst_24
  let main_v66 : IVec S512 1 := cmpf .olt main_v64 main_v65
  let main_c_25 : IVec S_ 1 := constantI S_ 1 1#1
  let main_v67 : IVec S_ 1 := (fun x v => Host.reduce IntOp.andi x v reducesTo_S512_S_d0 h_S_) main_v66 main_c_25
  fn_part4 (F := F) main_arg14 main_arg15 main_arg16 main_arg17 main_arg18 main_arg19 main_arg20 main_arg21 main_arg22 main_arg23 main_v63 main_v67

def fn_part2 {F : FTy → Type} [FloatOps F] (main_arg7 : FVec F S1 .f32) (main_arg8 : FVec F S512x1 .f32) (main_arg9 : FVec F S1 .f32) (main_arg10 : FVec F S512x512 .f32) (main_arg11 : FVec F S512 .f32) (main_arg12 : FVec F S512x512 .f32) (main_arg13 : FVec F S512 .f32) (main_arg14 : FVec F S512x1 .f32) (main_arg15 : FVec F S1 .f32) (main_arg16 : FVec F S512x1 .f32) (main_arg17 : FVec F S1 .f32) (main_arg18 : FVec F S512x1 .f32) (main_arg19 : FVec F S1 .f32) (main_arg20 : FVec F S512x512 .f32) (main_arg21 : FVec F S512 .f32) (main_arg22 : FVec F S512x512 .f32) (main_arg23 : FVec F S512 .f32) (main_v33 : IVec S_ 1) : IVec S_ 1 :=
  let main_v34 : FVec F S1 .f32 := Host.absf main_arg7
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  let main_v39 : FVec F S512x1 .f32 := Host.absf main_arg8
  let main_cst_14 : FVec F S_ .f32 := constant S_ .f32 0x7F800000#32
  let main_v40 : FVec F S512x1 .f32 := broadcastInDim S512x1 ![] bcast_S_S512x1 main_cst_14
  let main_v41 : IVec S512x1 1 := cmpf .olt main_v39 main_v40
  let main_c_15 : IVec S_ 1 := constantI S_ 1 1#1
  let main_v42 : IVec S_ 1 := (fun x v => Host.reduce IntOp.andi x v reducesTo_S512x1_S_d0_1 h_S_) main_v41 main_c_15
  let main_v43 : IVec S_ 1 := andi main_v38 main_v42
  let main_v44 : FVec F S1 .f32 := Host.absf main_arg9
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  let main_v49 : FVec F S512x512 .f32 := Host.absf main_arg10
  let main_cst_18 : FVec F S_ .f32 := constant S_ .f32 0x7F800000#32
  let main_v50 : FVec F S512x512 .f32 := broadcastInDim S512x512 ![] bcast_S_S512x512 main_cst_18
  fn_part3 (F := F) main_arg11 main_arg12 main_arg13 main_arg14 main_arg15 main_arg16 main_arg17 main_arg18 main_arg19 main_arg20 main_arg21 main_arg22 main_arg23 main_v48 main_v49 main_v50

def fn_part1 {F : FTy → Type} [FloatOps F] (main_arg4 : FVec F S1024x512 .f32) (main_arg5 : FVec F S512 .f32) (main_arg6 : FVec F S512x1 .f32) (main_arg7 : FVec F S1 .f32) (main_arg8 : FVec F S512x1 .f32) (main_arg9 : FVec F S1 .f32) (main_arg10 : FVec F S512x512 .f32) (main_arg11 : FVec F S512 .f32) (main_arg12 : FVec F S512x512 .f32) (main_arg13 : FVec F S512 .f32) (main_arg14 : FVec F S512x1 .f32) (main_arg15 : FVec F S1 .f32) (main_arg16 : FVec F S512x1 .f32) (main_arg17 : FVec F S1 .f32) (main_arg18 : FVec F S512x1 .f32) (main_arg19 : FVec F S1 .f32) (main_arg20 : FVec F S512x512 .f32) (main_arg21 : FVec F S512 .f32) (main_arg22 : FVec F S512x512 .f32) (main_arg23 : FVec F S512 .f32) (main_v13 : IVec S_ 1) (main_v16 : IVec S32768x512 1) : IVec S_ 1 :=
  let main_c_5 : IVec S_ 1 := constantI S_ 1 1#1
  let main_v17 : IVec S_ 1 := (fun x v => Host.reduce IntOp.andi x v reducesTo_S32768x512_S_d0_1 h_S_) main_v16 main_c_5
  let main_v18 : IVec S_ 1 := andi main_v13 main_v17
  let main_v19 : FVec F S1024x512 .f32 := Host.absf main_arg4
  let main_cst_6 : FVec F S_ .f32 := constant S_ .f32 0x7F800000#32
  let main_v20 : FVec F S1024x512 .f32 := broadcastInDim S1024x512 ![] bcast_S_S1024x512 main_cst_6
  let main_v21 : IVec S1024x512 1 := cmpf .olt main_v19 main_v20
  let main_c_7 : IVec S_ 1 := constantI S_ 1 1#1
  let main_v22 : IVec S_ 1 := (fun x v => Host.reduce IntOp.andi x v reducesTo_S1024x512_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512x1 .f32 := Host.absf main_arg6
  let main_cst_10 : FVec F S_ .f32 := constant S_ .f32 0x7F800000#32
  let main_v30 : FVec F S512x1 .f32 := broadcastInDim S512x1 ![] bcast_S_S512x1 main_cst_10
  let main_v31 : IVec S512x1 1 := cmpf .olt main_v29 main_v30
  let main_c_11 : IVec S_ 1 := constantI S_ 1 1#1
  let main_v32 : IVec S_ 1 := (fun x v => Host.reduce IntOp.andi x v reducesTo_S512x1_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_arg23 main_v33

def fn {F : FTy → Type} [FloatOps F] (main_arg0 : FVec F S32768x1024 .f32) (main_arg1 : FVec F S512x512 .f32) (main_arg2 : FVec F S32768x512 .f32) (main_arg3 : FVec F S32768x512 .f32) (main_arg4 : FVec F S1024x512 .f32) (main_arg5 : FVec F S512 .f32) (main_arg6 : FVec F S512x1 .f32) (main_arg7 : FVec F S1 .f32) (main_arg8 : FVec F S512x1 .f32) (main_arg9 : FVec F S1 .f32) (main_arg10 : FVec F S512x512 .f32) (main_arg11 : FVec F S512 .f32) (main_arg12 : FVec F S512x512 .f32) (main_arg13 : FVec F S512 .f32) (main_arg14 : FVec F S512x1 .f32) (main_arg15 : FVec F S1 .f32) (main_arg16 : FVec F S512x1 .f32) (main_arg17 : FVec F S1 .f32) (main_arg18 : FVec F S512x1 .f32) (main_arg19 : FVec F S1 .f32) (main_arg20 : FVec F S512x512 .f32) (main_arg21 : FVec F S512 .f32) (main_arg22 : FVec F S512x512 .f32) (main_arg23 : FVec F S512 .f32) : IVec S_ 1 :=
  let main_v0 : FVec F S32768x1024 .f32 := Host.absf main_arg0
  let main_cst : FVec F S_ .f32 := constant S_ .f32 0x7F800000#32
  let main_v1 : FVec F S32768x1024 .f32 := broadcastInDim S32768x1024 ![] bcast_S_S32768x1024 main_cst
  let main_v2 : IVec S32768x1024 1 := cmpf .olt main_v0 main_v1
  let main_c : IVec S_ 1 := constantI S_ 1 1#1
  let main_v3 : IVec S_ 1 := (fun x v => Host.reduce IntOp.andi x v reducesTo_S32768x1024_S_d0_1 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S32768x512 .f32 := Host.absf main_arg2
  let main_cst_2 : FVec F S_ .f32 := constant S_ .f32 0x7F800000#32
  let main_v10 : FVec F S32768x512 .f32 := broadcastInDim S32768x512 ![] bcast_S_S32768x512 main_cst_2
  let main_v11 : IVec S32768x512 1 := cmpf .olt main_v9 main_v10
  let main_c_3 : IVec S_ 1 := constantI S_ 1 1#1
  let main_v12 : IVec S_ 1 := (fun x v => Host.reduce IntOp.andi x v reducesTo_S32768x512_S_d0_1 h_S_) main_v11 main_c_3
  let main_v13 : IVec S_ 1 := andi main_v8 main_v12
  let main_v14 : FVec F S32768x512 .f32 := Host.absf main_arg3
  let main_cst_4 : FVec F S_ .f32 := constant S_ .f32 0x7F800000#32
  let main_v15 : FVec F S32768x512 .f32 := broadcastInDim S32768x512 ![] bcast_S_S32768x512 main_cst_4
  let main_v16 : IVec S32768x512 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_v13 main_v16
-- ==== Kernel.lean ====
abbrev S32768x1024 : Shape := ⟨2, ![32768, 1024]⟩
abbrev S512x512 : Shape := ⟨2, ![512, 512]⟩
abbrev S32768x512 : Shape := ⟨2, ![32768, 512]⟩
abbrev S1024x512 : Shape := ⟨2, ![1024, 512]⟩
abbrev S512 : Shape := ⟨1, ![512]⟩
abbrev S512x1 : Shape := ⟨2, ![512, 1]⟩
abbrev S1 : Shape := ⟨1, ![1]⟩
abbrev S1x512 : Shape := ⟨2, ![1, 512]⟩
abbrev S1x1 : Shape := ⟨2, ![1, 1]⟩
abbrev S512x1024 : Shape := ⟨2, ![512, 1024]⟩

abbrev nBuf : Space → Nat
  | .hbm => 37
  | .vmem => 33
  | .smem => 0
  | _ => 0

abbrev bufTy : (tb : Table) → Fin (tcTables nBuf tb) → BufTy
  | .hbm, ⟨0, _⟩ => ⟨S32768x1024, .f32⟩
  | .hbm, ⟨1, _⟩ => ⟨S512x512, .f32⟩
  | .hbm, ⟨2, _⟩ => ⟨S32768x512, .f32⟩
  | .hbm, ⟨3, _⟩ => ⟨S32768x512, .f32⟩
  | .hbm, ⟨4, _⟩ => ⟨S1024x512, .f32⟩
  | .hbm, ⟨5, _⟩ => ⟨S512, .f32⟩
  | .hbm, ⟨6, _⟩ => ⟨S512x1, .f32⟩
  | .hbm, ⟨7, _⟩ => ⟨S1, .f32⟩
  | .hbm, ⟨8, _⟩ => ⟨S512x1, .f32⟩
  | .hbm, ⟨9, _⟩ => ⟨S1, .f32⟩
  | .hbm, ⟨10, _⟩ => ⟨S512x512, .f32⟩
  | .hbm, ⟨11, _⟩ => ⟨S512, .f32⟩
  | .hbm, ⟨12, _⟩ => ⟨S512x512, .f32⟩
  | .hbm, ⟨13, _⟩ => ⟨S512, .f32⟩
  | .hbm, ⟨14, _⟩ => ⟨S512x1, .f32⟩
  | .hbm, ⟨15, _⟩ => ⟨S1, .f32⟩
  | .hbm, ⟨16, _⟩ => ⟨S512x1, .f32⟩
  | .hbm, ⟨17, _⟩ => ⟨S1, .f32⟩
  | .hbm, ⟨18, _⟩ => ⟨S512x1, .f32⟩
  | .hbm, ⟨19, _⟩ => ⟨S1, .f32⟩
  | .hbm, ⟨20, _⟩ => ⟨S512x512, .f32⟩
  | .hbm, ⟨21, _⟩ => ⟨S512, .f32⟩
  | .hbm, ⟨22, _⟩ => ⟨S512x512, .f32⟩
  | .hbm, ⟨23, _⟩ => ⟨S512, .f32⟩
  | .hbm, ⟨24, _⟩ => ⟨S1x512, .f32⟩
  | .hbm, ⟨25, _⟩ => ⟨S1x1, .f32⟩
  | .hbm, ⟨26, _⟩ => ⟨S1x1, .f32⟩
  | .hbm, ⟨27, _⟩ => ⟨S1x512, .f32⟩
  | .hbm, ⟨28, _⟩ => ⟨S1x512, .f32⟩
  | .hbm, ⟨29, _⟩ => ⟨S1x1, .f32⟩
  | .hbm, ⟨30, _⟩ => ⟨S1x1, .f32⟩
  | .hbm, ⟨31, _⟩ => ⟨S1x1, .f32⟩
  | .hbm, ⟨32, _⟩ => ⟨S1x512, .f32⟩
  | .hbm, ⟨33, _⟩ => ⟨S1x512, .f32⟩
  | .hbm, ⟨34, _⟩ => ⟨S32768x512, .f32⟩
  | .hbm, ⟨35, _⟩ => ⟨S32768x512, .f32⟩
  | .hbm, ⟨36, _⟩ => ⟨S32768x512, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S1024x512, .f32⟩
  | .local _ .vmem, ⟨8, _⟩ => ⟨S1x512, .f32⟩
  | .local _ .vmem, ⟨9, _⟩ => ⟨S512x1, .f32⟩
  | .local _ .vmem, ⟨10, _⟩ => ⟨S1x1, .f32⟩
  | .local _ .vmem, ⟨11, _⟩ => ⟨S512x1, .f32⟩
  | .local _ .vmem, ⟨12, _⟩ => ⟨S1x1, .f32⟩
  | .local _ .vmem, ⟨13, _⟩ => ⟨S512x512, .f32⟩
  | .local _ .vmem, ⟨14, _⟩ => ⟨S1x512, .f32⟩
  | .local _ .vmem, ⟨15, _⟩ => ⟨S512x512, .f32⟩
  | .local _ .vmem, ⟨16, _⟩ => ⟨S1x512, .f32⟩
  | .local _ .vmem, ⟨17, _⟩ => ⟨S512x1, .f32⟩
  | .local _ .vmem, ⟨18, _⟩ => ⟨S1x1, .f32⟩
  | .local _ .vmem, ⟨19, _⟩ => ⟨S512x1, .f32⟩
  | .local _ .vmem, ⟨20, _⟩ => ⟨S1x1, .f32⟩
  | .local _ .vmem, ⟨21, _⟩ => ⟨S512x1, .f32⟩
  | .local _ .vmem, ⟨22, _⟩ => ⟨S1x1, .f32⟩
  | .local _ .vmem, ⟨23, _⟩ => ⟨S512x512, .f32⟩
  | .local _ .vmem, ⟨24, _⟩ => ⟨S1x512, .f32⟩
  | .local _ .vmem, ⟨25, _⟩ => ⟨S512x512, .f32⟩
  | .local _ .vmem, ⟨26, _⟩ => ⟨S1x512, .f32⟩
  | .local _ .vmem, ⟨27, _⟩ => ⟨S512x512, .f32⟩
  | .local _ .vmem, ⟨28, _⟩ => ⟨S512x512, .f32⟩
  | .local _ .vmem, ⟨29, _⟩ => ⟨S512x512, .f32⟩
  | .local _ .vmem, ⟨30, _⟩ => ⟨S512x512, .f32⟩
  | .local _ .vmem, ⟨31, _⟩ => ⟨S512x512, .f32⟩
  | .local _ .vmem, ⟨32, _⟩ => ⟨S512x512, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10_0 : Ref sig .tc := ⟨.hbm, 34, rfl⟩
abbrev main_v10_1 : Ref sig .tc := ⟨.hbm, 35, rfl⟩
abbrev main_v10_2 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg16_0 : Ref sig .tc := ⟨.vmem, 19, rfl⟩
abbrev cc0_stg17_0 : Ref sig .tc := ⟨.vmem, 20, rfl⟩
abbrev cc0_stg18_0 : Ref sig .tc := ⟨.vmem, 21, rfl⟩
abbrev cc0_stg19_0 : Ref sig .tc := ⟨.vmem, 22, rfl⟩
abbrev cc0_stg20_0 : Ref sig .tc := ⟨.vmem, 23, rfl⟩
abbrev cc0_stg21_0 : Ref sig .tc := ⟨.vmem, 24, rfl⟩
abbrev cc0_stg22_0 : Ref sig .tc := ⟨.vmem, 25, rfl⟩
abbrev cc0_stg23_0 : Ref sig .tc := ⟨.vmem, 26, rfl⟩
abbrev cc0_stg24_0 : Ref sig .tc := ⟨.vmem, 27, rfl⟩
abbrev cc0_stg24_1 : Ref sig .tc := ⟨.vmem, 28, rfl⟩
abbrev cc0_stg25_0 : Ref sig .tc := ⟨.vmem, 29, rfl⟩
abbrev cc0_stg25_1 : Ref sig .tc := ⟨.vmem, 30, rfl⟩
abbrev cc0_stg26_0 : Ref sig .tc := ⟨.vmem, 31, rfl⟩
abbrev cc0_stg26_1 : Ref sig .tc := ⟨.vmem, 32, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem16_0 : DmaSem sig := 19
abbrev cc0_sem17_0 : DmaSem sig := 20
abbrev cc0_sem18_0 : DmaSem sig := 21
abbrev cc0_sem19_0 : DmaSem sig := 22
abbrev cc0_sem20_0 : DmaSem sig := 23
abbrev cc0_sem21_0 : DmaSem sig := 24
abbrev cc0_sem22_0 : DmaSem sig := 25
abbrev cc0_sem23_0 : DmaSem sig := 26
abbrev cc0_sem24_0 : DmaSem sig := 27
abbrev cc0_sem24_1 : DmaSem sig := 28
abbrev cc0_sem25_0 : DmaSem sig := 29
abbrev cc0_sem25_1 : DmaSem sig := 30
abbrev cc0_sem26_0 : DmaSem sig := 31
abbrev cc0_sem26_1 : DmaSem sig := 32

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_25 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_26 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S512x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S512x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S512x1 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S512x1 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x1 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S512x512 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x512 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S512x512 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S1x512 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 2 → Memref sig .tc .vmem S512x512 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S512x512 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

abbrev stage0_26 : Fin 2 → Memref sig .tc .vmem S512x512 .f32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]

class Facts₀ : Prop where
  shapeCasts_S512_S1x512 : S512.ShapeCasts S1x512
  shapeCasts_S1_S1x1 : S1.ShapeCasts S1x1
  inb_S512x1024_S512x1024_0_0 : ∀ a, (![0, 0] : Fin 2 → Nat) a + S512x1024.size a ≤ S512x1024.size a
  h_S512x1024 : 0 < S512x1024.numel
  inb_S512x512_S512x512_0_0 : ∀ a, (![0, 0] : Fin 2 → Nat) a + S512x512.size a ≤ S512x512.size a
  h_S512x512 : 0 < S512x512.numel
  inb_S1024x512_S1024x512_0_0 : ∀ a, (![0, 0] : Fin 2 → Nat) a + S1024x512.size a ≤ S1024x512.size a
  h_S1024x512 : 0 < S1024x512.numel
  bitsLt_bf16_f32 : FTy.bits .bf16 < FTy.bits .f32
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  inb_S512x1_S512x1_0_0 : ∀ a, (![0, 0] : Fin 2 → Nat) a + S512x1.size a ≤ S512x1.size a
  h_S512x1 : 0 < S512x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S512x1 : S1x1.Broadcasts S512x1
  broadcasts_S512x1_S512x512 : S512x1.Broadcasts S512x512
  dot_S512x1024_S1024x512_S512x512_1_0_0_1_n_n_wf : DotDims.WF S512x1024 S1024x512 S512x512 [1] [0] [0] [1] [] []
  dot_S512x512_S512x512_S512x512_1_0_0_1_n_n_wf : DotDims.WF S512x512 S512x512 S512x512 [1] [0] [0] [1] [] []
  dot_S512x512_S512x1_S512x1_1_0_0_1_n_n_wf : DotDims.WF S512x512 S512x1 S512x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S32768x1024.size a
  hwx0_0 : ∀ i : grid0.Coords, EltTy.bits .f32 = 32 ∨ (Rect.block (s := S32768x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S32768x512.size a
  hwx0_2 : ∀ i : grid0.Coords, EltTy.bits .f32 = 32 ∨ (Rect.block (s := S32768x512) S512x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S32768x512.size a
  hwx0_3 : ∀ i : grid0.Coords, EltTy.bits .f32 = 32 ∨ (Rect.block (s := S32768x512) S512x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x512.size a ≤ S1024x512.size a
  hwx0_4 : ∀ i : grid0.Coords, EltTy.bits .f32 = 32 ∨ (Rect.block (s := S1024x512) S1024x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x512.size a
  hwx0_5 : ∀ i : grid0.Coords, EltTy.bits .f32 = 32 ∨ (Rect.block (s := S1x512) S1x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x1.size a ≤ S512x1.size a
  hwx0_6 : ∀ i : grid0.Coords, EltTy.bits .f32 = 32 ∨ (Rect.block (s := S512x1) S512x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1.size a ≤ S1x1.size a
  hwx0_7 : ∀ i : grid0.Coords, EltTy.bits .f32 = 32 ∨ (Rect.block (s := S1x1) S1x1.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S512x1.size a ≤ S512x1.size a
  hwx0_8 : ∀ i : grid0.Coords, EltTy.bits .f32 = 32 ∨ (Rect.block (s := S512x1) S512x1.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x1.size a ≤ S1x1.size a
  hwx0_9 : ∀ i : grid0.Coords, EltTy.bits .f32 = 32 ∨ (Rect.block (s := S1x1) S1x1.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S512x512.size a ≤ S512x512.size a
  hwx0_10 : ∀ i : grid0.Coords, EltTy.bits .f32 = 32 ∨ (Rect.block (s := S512x512) S512x512.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x512.size a ≤ S1x512.size a
  hwx0_11 : ∀ i : grid0.Coords, EltTy.bits .f32 = 32 ∨ (Rect.block (s := S1x512) S1x512.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S512x512.size a ≤ S512x512.size a
  hwx0_12 : ∀ i : grid0.Coords, EltTy.bits .f32 = 32 ∨ (Rect.block (s := S512x512) S512x512.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x512.size a ≤ S1x512.size a
  hwx0_13 : ∀ i : grid0.Coords, EltTy.bits .f32 = 32 ∨ (Rect.block (s := S1x512) S1x512.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S512x1.size a ≤ S512x1.size a
  hwx0_14 : ∀ i : grid0.Coords, EltTy.bits .f32 = 32 ∨ (Rect.block (s := S512x1) S512x1.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S1x1.size a ≤ S1x1.size a
  hwx0_15 : ∀ i : grid0.Coords, EltTy.bits .f32 = 32 ∨ (Rect.block (s := S1x1) S1x1.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S512x1.size a ≤ S512x1.size a
  hwx0_16 : ∀ i : grid0.Coords, EltTy.bits .f32 = 32 ∨ (Rect.block (s := S512x1) S512x1.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S1x1.size a ≤ S1x1.size a
  hwx0_17 : ∀ i : grid0.Coords, EltTy.bits .f32 = 32 ∨ (Rect.block (s := S1x1) S1x1.size (cc0_transform_17 i) (hinb0_17 i)).WholeWords (EltTy.packing .f32)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S512x1.size a ≤ S512x1.size a
  hwx0_18 : ∀ i : grid0.Coords, EltTy.bits .f32 = 32 ∨ (Rect.block (s := S512x1) S512x1.size (cc0_transform_18 i) (hinb0_18 i)).WholeWords (EltTy.packing .f32)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S1x1.size a ≤ S1x1.size a
  hwx0_19 : ∀ i : grid0.Coords, EltTy.bits .f32 = 32 ∨ (Rect.block (s := S1x1) S1x1.size (cc0_transform_19 i) (hinb0_19 i)).WholeWords (EltTy.packing .f32)
  hstage0_20 : ∀ j, (stage0_20 j).IsWhole
  nbuf0_20 : grid0.bufCount reads0_20 true = 1
  hreads0_20 : ∀ i i' : grid0.Coords, (∀ a, reads0_20 a = true → i a = i' a) → cc0_transform_20 i = cc0_transform_20 i'
  hinb0_20 : ∀ (i : grid0.Coords) a, (cc0_transform_20 i a + 1) * S512x512.size a ≤ S512x512.size a
  hwx0_20 : ∀ i : grid0.Coords, EltTy.bits .f32 = 32 ∨ (Rect.block (s := S512x512) S512x512.size (cc0_transform_20 i) (hinb0_20 i)).WholeWords (EltTy.packing .f32)
  hstage0_21 : ∀ j, (stage0_21 j).IsWhole
  nbuf0_21 : grid0.bufCount reads0_21 true = 1
  hreads0_21 : ∀ i i' : grid0.Coords, (∀ a, reads0_21 a = true → i a = i' a) → cc0_transform_21 i = cc0_transform_21 i'
  hinb0_21 : ∀ (i : grid0.Coords) a, (cc0_transform_21 i a + 1) * S1x512.size a ≤ S1x512.size a
  hwx0_21 : ∀ i : grid0.Coords, EltTy.bits .f32 = 32 ∨ (Rect.block (s := S1x512) S1x512.size (cc0_transform_21 i) (hinb0_21 i)).WholeWords (EltTy.packing .f32)
  hstage0_22 : ∀ j, (stage0_22 j).IsWhole
  nbuf0_22 : grid0.bufCount reads0_22 true = 1
  hreads0_22 : ∀ i i' : grid0.Coords, (∀ a, reads0_22 a = true → i a = i' a) → cc0_transform_22 i = cc0_transform_22 i'
  hinb0_22 : ∀ (i : grid0.Coords) a, (cc0_transform_22 i a + 1) * S512x512.size a ≤ S512x512.size a
  hwx0_22 : ∀ i : grid0.Coords, EltTy.bits .f32 = 32 ∨ (Rect.block (s := S512x512) S512x512.size (cc0_transform_22 i) (hinb0_22 i)).WholeWords (EltTy.packing .f32)
  hstage0_23 : ∀ j, (stage0_23 j).IsWhole
  nbuf0_23 : grid0.bufCount reads0_23 true = 1
  hreads0_23 : ∀ i i' : grid0.Coords, (∀ a, reads0_23 a = true → i a = i' a) → cc0_transform_23 i = cc0_transform_23 i'
  hinb0_23 : ∀ (i : grid0.Coords) a, (cc0_transform_23 i a + 1) * S1x512.size a ≤ S1x512.size a
  hwx0_23 : ∀ i : grid0.Coords, EltTy.bits .f32 = 32 ∨ (Rect.block (s := S1x512) S1x512.size (cc0_transform_23 i) (hinb0_23 i)).WholeWords (EltTy.packing .f32)
  hstage0_24 : ∀ j, (stage0_24 j).IsWhole
  nbuf0_24 : grid0.bufCount reads0_24 false = 2
  hreads0_24 : ∀ i i' : grid0.Coords, (∀ a, reads0_24 a = true → i a = i' a) → cc0_transform_24 i = cc0_transform_24 i'
  hinb0_24 : ∀ (i : grid0.Coords) a, (cc0_transform_24 i a + 1) * S512x512.size a ≤ S32768x512.size a
  hwx0_24 : ∀ i : grid0.Coords, EltTy.bits .f32 = 32 ∨ (Rect.block (s := S32768x512) S512x512.size (cc0_transform_24 i) (hinb0_24 i)).WholeWords (EltTy.packing .f32)
  hstage0_25 : ∀ j, (stage0_25 j).IsWhole
  nbuf0_25 : grid0.bufCount reads0_25 false = 2
  hreads0_25 : ∀ i i' : grid0.Coords, (∀ a, reads0_25 a = true → i a = i' a) → cc0_transform_25 i = cc0_transform_25 i'
  hinb0_25 : ∀ (i : grid0.Coords) a, (cc0_transform_25 i a + 1) * S512x512.size a ≤ S32768x512.size a
  hwx0_25 : ∀ i : grid0.Coords, EltTy.bits .f32 = 32 ∨ (Rect.block (s := S32768x512) S512x512.size (cc0_transform_25 i) (hinb0_25 i)).WholeWords (EltTy.packing .f32)
  hstage0_26 : ∀ j, (stage0_26 j).IsWhole
  nbuf0_26 : grid0.bufCount reads0_26 false = 2
  hreads0_26 : ∀ i i' : grid0.Coords, (∀ a, reads0_26 a = true → i a = i' a) → cc0_transform_26 i = cc0_transform_26 i'
  hinb0_26 : ∀ (i : grid0.Coords) a, (cc0_transform_26 i a + 1) * S512x512.size a ≤ S32768x512.size a
  hwx0_26 : ∀ i : grid0.Coords, EltTy.bits .f32 = 32 ∨ (Rect.block (s := S32768x512) S512x512.size (cc0_transform_26 i) (hinb0_26 i)).WholeWords (EltTy.packing .f32)

variable [Facts₀]

def dot_S512x1024_S1024x512_S512x512_1_0_0_1_n_n : DotDims S512x1024 S1024x512 S512x512 where
  lhsContracting := [1]
  rhsContracting := [0]
  lhsNonContracting := [0]
  rhsNonContracting := [1]
  lhsBatch := []
  rhsBatch := []
  wf := dot_S512x1024_S1024x512_S512x512_1_0_0_1_n_n_wf
def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf
def dot_S512x512_S512x1_S512x1_1_0_0_1_n_n : DotDims S512x512 S512x1 S512x1 where
  lhsContracting := [1]
  rhsContracting := [0]
  lhsNonContracting := [0]
  rhsNonContracting := [1]
  lhsBatch := []
  rhsBatch := []
  wf := dot_S512x512_S512x1_S512x1_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1024x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S1x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S512x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v1) S1x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S512x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v2) S1x1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S512x512.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v3) S1x512.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg12) S512x512.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v4) S1x512.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg14) S512x1.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v5) S1x1.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_arg16) S512x1.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v6) S1x1.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_arg18) S512x1.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_v7) S1x1.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_arg20) S512x512.size cc0_transform_20 reads0_20 false true 1 stage0_20 sem0_20
    hrank0 hreads0_20 hinb0_20 nbuf0_20 (Memref.isWhole_whole _) hwx0_20 hstage0_20

abbrev win0_21 : Pipeline.Window sig grid0 :=
  Pipeline.Window.ofSpec (Memref.whole main_v8) S1x512.size cc0_transform_21 reads0_21 false true 1 stage0_21 sem0_21
    hrank0 hreads0_21 hinb0_21 nbuf0_21 (Memref.isWhole_whole _) hwx0_21 hstage0_21

abbrev win0_22 : Pipeline.Window sig grid0 :=
  Pipeline.Window.ofSpec (Memref.whole main_arg22) S512x512.size cc0_transform_22 reads0_22 false true 1 stage0_22 sem0_22
    hrank0 hreads0_22 hinb0_22 nbuf0_22 (Memref.isWhole_whole _) hwx0_22 hstage0_22

abbrev win0_23 : Pipeline.Window sig grid0 :=
  Pipeline.Window.ofSpec (Memref.whole main_v9) S1x512.size cc0_transform_23 reads0_23 false true 1 stage0_23 sem0_23
    hrank0 hreads0_23 hinb0_23 nbuf0_23 (Memref.isWhole_whole _) hwx0_23 hstage0_23

abbrev win0_24 : Pipeline.Window sig grid0 :=
  Pipeline.Window.ofSpec (Memref.whole main_v10_0) S512x512.size cc0_transform_24 reads0_24 true false 2 stage0_24 sem0_24
    hrank0 hreads0_24 hinb0_24 nbuf0_24 (Memref.isWhole_whole _) hwx0_24 hstage0_24

abbrev win0_25 : Pipeline.Window sig grid0 :=
  Pipeline.Window.ofSpec (Memref.whole main_v10_1) S512x512.size cc0_transform_25 reads0_25 true false 2 stage0_25 sem0_25
    hrank0 hreads0_25 hinb0_25 nbuf0_25 (Memref.isWhole_whole _) hwx0_25 hstage0_25

abbrev win0_26 : Pipeline.Window sig grid0 :=
  Pipeline.Window.ofSpec (Memref.whole main_v10_2) S512x512.size cc0_transform_26 reads0_26 true false 2 stage0_26 sem0_26
    hrank0 hreads0_26 hinb0_26 nbuf0_26 (Memref.isWhole_whole _) hwx0_26 hstage0_26

abbrev win0 : Fin 27 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | 22 => win0_22 | 23 => win0_23 | 24 => win0_24 | 25 => win0_25 | 26 => win0_26 | ⟨_ + 27, h⟩ => absurd h (Nat.not_lt.2 (Nat.le_add_left _ _))
abbrev spec0 : Fin 27 → Pipeline.WinSpec sig grid0.rank := fun w => (win0 w).toWinSpec

class Facts : Prop extends Facts₀ where

variable [Facts]
-- ==== ReferenceIdeal.lean ====
abbrev S32768x1024 : Shape := ⟨2, ![32768, 1024]⟩
abbrev S512x512 : Shape := ⟨2, ![512, 512]⟩
abbrev S32768x512 : Shape := ⟨2, ![32768, 512]⟩
abbrev S1024x512 : Shape := ⟨2, ![1024, 512]⟩
abbrev S512 : Shape := ⟨1, ![512]⟩
abbrev S512x1 : Shape := ⟨2, ![512, 1]⟩
abbrev S1 : Shape := ⟨1, ![1]⟩
abbrev S1x512 : Shape := ⟨2, ![1, 512]⟩
abbrev S_ : Shape := ⟨0, ![]⟩
abbrev S32768x1 : Shape := ⟨2, ![32768, 1]⟩
abbrev S1x1 : Shape := ⟨2, ![1, 1]⟩

abbrev nBuf : Space → Nat
  | .hbm => 107
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S512x512, .f32⟩
  | .hbm, ⟨2, _⟩ => ⟨S32768x512, .f32⟩
  | .hbm, ⟨3, _⟩ => ⟨S32768x512, .f32⟩
  | .hbm, ⟨4, _⟩ => ⟨S1024x512, .f32⟩
  | .hbm, ⟨5, _⟩ => ⟨S512, .f32⟩
  | .hbm, ⟨6, _⟩ => ⟨S512x1, .f32⟩
  | .hbm, ⟨7, _⟩ => ⟨S1, .f32⟩
  | .hbm, ⟨8, _⟩ => ⟨S512x1, .f32⟩
  | .hbm, ⟨9, _⟩ => ⟨S1, .f32⟩
  | .hbm, ⟨10, _⟩ => ⟨S512x512, .f32⟩
  | .hbm, ⟨11, _⟩ => ⟨S512, .f32⟩
  | .hbm, ⟨12, _⟩ => ⟨S512x512, .f32⟩
  | .hbm, ⟨13, _⟩ => ⟨S512, .f32⟩
  | .hbm, ⟨14, _⟩ => ⟨S512x1, .f32⟩
  | .hbm, ⟨15, _⟩ => ⟨S1, .f32⟩
  | .hbm, ⟨16, _⟩ => ⟨S512x1, .f32⟩
  | .hbm, ⟨17, _⟩ => ⟨S1, .f32⟩
  | .hbm, ⟨18, _⟩ => ⟨S512x1, .f32⟩
  | .hbm, ⟨19, _⟩ => ⟨S1, .f32⟩
  | .hbm, ⟨20, _⟩ => ⟨S512x512, .f32⟩
  | .hbm, ⟨21, _⟩ => ⟨S512, .f32⟩
  | .hbm, ⟨22, _⟩ => ⟨S512x512, .f32⟩
  | .hbm, ⟨23, _⟩ => ⟨S512, .f32⟩
  | .hbm, ⟨24, _⟩ => ⟨S32768x512, .f32⟩
  | .hbm, ⟨25, _⟩ => ⟨S1x512, .f32⟩
  | .hbm, ⟨26, _⟩ => ⟨S32768x512, .f32⟩
  | .hbm, ⟨27, _⟩ => ⟨S32768x512, .f32⟩
  | .hbm, ⟨28, _⟩ => ⟨S32768x512, .f32⟩
  | .hbm, ⟨29, _⟩ => ⟨S1x512, .f32⟩
  | .hbm, ⟨30, _⟩ => ⟨S32768x512, .f32⟩
  | .hbm, ⟨31, _⟩ => ⟨S32768x512, .f32⟩
  | .hbm, ⟨32, _⟩ => ⟨S32768x512, .f32⟩
  | .hbm, ⟨33, _⟩ => ⟨S32768x512, .f32⟩
  | .hbm, ⟨34, _⟩ => ⟨S1x512, .f32⟩
  | .hbm, ⟨35, _⟩ => ⟨S32768x512, .f32⟩
  | .hbm, ⟨36, _⟩ => ⟨S32768x512, .f32⟩
  | .hbm, ⟨37, _⟩ => ⟨S32768x512, .f32⟩
  | .hbm, ⟨38, _⟩ => ⟨S32768x512, .f32⟩
  | .hbm, ⟨39, _⟩ => ⟨S_, .f32⟩
  | .hbm, ⟨40, _⟩ => ⟨S32768x512, .f32⟩
  | .hbm, ⟨41, _⟩ => ⟨S32768x512, .f32⟩
  | .hbm, ⟨42, _⟩ => ⟨S_, .f32⟩
  | .hbm, ⟨43, _⟩ => ⟨S32768x512, .f32⟩
  | .hbm, ⟨44, _⟩ => ⟨S32768x512, .f32⟩
  | .hbm, ⟨45, _⟩ => ⟨S32768x512, .f32⟩
  | .hbm, ⟨46, _⟩ => ⟨S32768x512, .f32⟩
  | .hbm, ⟨47, _⟩ => ⟨S32768x1, .f32⟩
  | .hbm, ⟨48, _⟩ => ⟨S1x1, .f32⟩
  | .hbm, ⟨49, _⟩ => ⟨S32768x1, .f32⟩
  | .hbm, ⟨50, _⟩ => ⟨S32768x1, .f32⟩
  | .hbm, ⟨51, _⟩ => ⟨S32768x1, .f32⟩
  | .hbm, ⟨52, _⟩ => ⟨S32768x1, .f32⟩
  | .hbm, ⟨53, _⟩ => ⟨S1x1, .f32⟩
  | .hbm, ⟨54, _⟩ => ⟨S32768x1, .f32⟩
  | .hbm, ⟨55, _⟩ => ⟨S32768x1, .f32⟩
  | .hbm, ⟨56, _⟩ => ⟨S32768x1, .f32⟩
  | .hbm, ⟨57, _⟩ => ⟨S32768x1, .f32⟩
  | .hbm, ⟨58, _⟩ => ⟨S_, .f32⟩
  | .hbm, ⟨59, _⟩ => ⟨S32768x1, .f32⟩
  | .hbm, ⟨60, _⟩ => ⟨S32768x1, .f32⟩
  | .hbm, ⟨61, _⟩ => ⟨S_, .f32⟩
  | .hbm, ⟨62, _⟩ => ⟨S32768x1, .f32⟩
  | .hbm, ⟨63, _⟩ => ⟨S32768x1, .f32⟩
  | .hbm, ⟨64, _⟩ => ⟨S_, .f32⟩
  | .hbm, ⟨65, _⟩ => ⟨S32768x1, .f32⟩
  | .hbm, ⟨66, _⟩ => ⟨S32768x1, .f32⟩
  | .hbm, ⟨67, _⟩ => ⟨S32768x512, .f32⟩
  | .hbm, ⟨68, _⟩ => ⟨S32768x512, .f32⟩
  | .hbm, ⟨69, _⟩ => ⟨S32768x512, .f32⟩
  | .hbm, ⟨70, _⟩ => ⟨S1x512, .f32⟩
  | .hbm, ⟨71, _⟩ => ⟨S32768x512, .f32⟩
  | .hbm, ⟨72, _⟩ => ⟨S32768x512, .f32⟩
  | .hbm, ⟨73, _⟩ => ⟨S32768x512, .f32⟩
  | .hbm, ⟨74, _⟩ => ⟨S32768x512, .f32⟩
  | .hbm, ⟨75, _⟩ => ⟨S1x512, .f32⟩
  | .hbm, ⟨76, _⟩ => ⟨S32768x512, .f32⟩
  | .hbm, ⟨77, _⟩ => ⟨S32768x512, .f32⟩
  | .hbm, ⟨78, _⟩ => ⟨S32768x512, .f32⟩
  | .hbm, ⟨79, _⟩ => ⟨S32768x512, .f32⟩
  | .hbm, ⟨80, _⟩ => ⟨S32768x512, .f32⟩
  | .hbm, ⟨81, _⟩ => ⟨S32768x512, .f32⟩
  | .hbm, ⟨82, _⟩ => ⟨S32768x1, .f32⟩
  | .hbm, ⟨83, _⟩ => ⟨S1x1, .f32⟩
  | .hbm, ⟨84, _⟩ => ⟨S32768x1, .f32⟩
  | .hbm, ⟨85, _⟩ => ⟨S32768x1, .f32⟩
  | .hbm, ⟨86, _⟩ => ⟨S32768x1, .f32⟩
  | .hbm, ⟨87, _⟩ => ⟨S32768x1, .f32⟩
  | .hbm, ⟨88, _⟩ => ⟨S1x1, .f32⟩
  | .hbm, ⟨89, _⟩ => ⟨S32768x1, .f32⟩
  | .hbm, ⟨90, _⟩ => ⟨S32768x1, .f32⟩
  | .hbm, ⟨91, _⟩ => ⟨S32768x1, .f32⟩
  | .hbm, ⟨92, _⟩ => ⟨S32768x1, .f32⟩
  | .hbm, ⟨93, _⟩ => ⟨S1x1, .f32⟩
  | .hbm, ⟨94, _⟩ => ⟨S32768x1, .f32⟩
  | .hbm, ⟨95, _⟩ => ⟨S32768x1, .f32⟩
  | .hbm, ⟨96, _⟩ => ⟨S32768x1, .f32⟩
  | .hbm, ⟨97, _⟩ => ⟨S32768x1, .f32⟩
  | .hbm, ⟨98, _⟩ => ⟨S_, .f32⟩
  | .hbm, ⟨99, _⟩ => ⟨S32768x1, .f32⟩
  | .hbm, ⟨100, _⟩ => ⟨S32768x1, .f32⟩
  | .hbm, ⟨101, _⟩ => ⟨S_, .f32⟩
  | .hbm, ⟨102, _⟩ => ⟨S32768x1, .f32⟩
  | .hbm, ⟨103, _⟩ => ⟨S32768x1, .f32⟩
  | .hbm, ⟨104, _⟩ => ⟨S32768x512, .f32⟩
  | .hbm, ⟨105, _⟩ => ⟨S32768x512, .f32⟩
  | .hbm, ⟨106, _⟩ => ⟨S32768x512, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_cst : Ref sig .tc := ⟨.hbm, 39, rfl⟩
abbrev main_v15 : Ref sig .tc := ⟨.hbm, 40, rfl⟩
abbrev main_v16 : Ref sig .tc := ⟨.hbm, 41, rfl⟩
abbrev main_cst_0 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_cst_1 : Ref sig .tc := ⟨.hbm, 58, rfl⟩
abbrev main_v32 : Ref sig .tc := ⟨.hbm, 59, rfl⟩
abbrev main_v33 : Ref sig .tc := ⟨.hbm, 60, rfl⟩
abbrev main_cst_2 : Ref sig .tc := ⟨.hbm, 61, rfl⟩
abbrev main_v34 : Ref sig .tc := ⟨.hbm, 62, rfl⟩
abbrev main_v35 : Ref sig .tc := ⟨.hbm, 63, rfl⟩
abbrev main_cst_3 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_cst_4 : Ref sig .tc := ⟨.hbm, 98, rfl⟩
abbrev main_v69 : Ref sig .tc := ⟨.hbm, 99, rfl⟩
abbrev main_v70 : Ref sig .tc := ⟨.hbm, 100, rfl⟩
abbrev main_cst_5 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩

abbrev nD : Nat := 1
abbrev τ : Topo := Topo.v7x

variable {F : FTy → Type} [FloatOps F]

class Facts₀ : Prop where
  bcast_S512_S1x512_1 : S512.BroadcastsInDim S1x512 (![1] : Fin 1 → Fin S1x512.rank)
  bcast_S1x512_S32768x512_0_1 : S1x512.BroadcastsInDim S32768x512 (![0, 1] : Fin 2 → Fin S32768x512.rank)
  bcast_S_S32768x512 : S_.BroadcastsInDim S32768x512 (![] : Fin 0 → Fin S32768x512.rank)
  bcast_S1_S1x1_1 : S1.BroadcastsInDim S1x1 (![1] : Fin 1 → Fin S1x1.rank)
  bcast_S1x1_S32768x1_0_1 : S1x1.BroadcastsInDim S32768x1 (![0, 1] : Fin 2 → Fin S32768x1.rank)
  bcast_S_S32768x1 : S_.BroadcastsInDim S32768x1 (![] : Fin 0 → Fin S32768x1.rank)
  bcast_S32768x1_S32768x512_0_1 : S32768x1.BroadcastsInDim S32768x512 (![0, 1] : Fin 2 → Fin S32768x512.rank)
  dot_S32768x1024_S1024x512_S32768x512_1_0_0_1_n_n_wf : DotDims.WF S32768x1024 S1024x512 S32768x512 [1] [0] [0] [1] [] []
  dot_S32768x512_S512x512_S32768x512_1_0_0_1_n_n_wf : DotDims.WF S32768x512 S512x512 S32768x512 [1] [0] [0] [1] [] []
  dot_S32768x512_S512x1_S32768x1_1_0_0_1_n_n_wf : DotDims.WF S32768x512 S512x1 S32768x1 [1] [0] [0] [1] [] []

variable [Facts₀]

def dot_S32768x1024_S1024x512_S32768x512_1_0_0_1_n_n : DotDims S32768x1024 S1024x512 S32768x512 where
  lhsContracting := [1]
  rhsContracting := [0]
  lhsNonContracting := [0]
  rhsNonContracting := [1]
  lhsBatch := []
  rhsBatch := []
  wf := dot_S32768x1024_S1024x512_S32768x512_1_0_0_1_n_n_wf
def dot_S32768x512_S512x512_S32768x512_1_0_0_1_n_n : DotDims S32768x512 S512x512 S32768x512 where
  lhsContracting := [1]
  rhsContracting := [0]
  lhsNonContracting := [0]
  rhsNonContracting := [1]
  lhsBatch := []
  rhsBatch := []
  wf := dot_S32768x512_S512x512_S32768x512_1_0_0_1_n_n_wf
def dot_S32768x512_S512x1_S32768x1_1_0_0_1_n_n : DotDims S32768x512 S512x1 S32768x1 where
  lhsContracting := [1]
  rhsContracting := [0]
  lhsNonContracting := [0]
  rhsNonContracting := [1]
  lhsBatch := []
  rhsBatch := []
  wf := dot_S32768x512_S512x1_S32768x1_1_0_0_1_n_n_wf

class Facts : Prop extends Facts₀ where

variable [Facts]
-- ==== Proof.Cell.lean ====
/-
  One batch row of the gated path-walker cell, on the extended reals.

  A row carries an input `x̄ ∈ ℝ̄¹⁰²⁴`, a hidden state `h ∈ ℝ̄⁵¹²` and a memory `c ∈ ℝ̄⁵¹²`; the weights are shared by all
  rows. With `σ t = 1 / (1 + e^(-t))` and a row-times-matrix product written `a · W`:

    x  = x̄ · Wx + bx                                   the projected input
    α  = σ (((h · Wha + bha) + x · Wxa) + bxa)          one attention weight per relation
    r  = α · R                                          the attended mixture of the relation vectors `R`
    z  = h + r
    i  = σ (((h · whi + bhi) + c · wci) + bci)          the input gate, one number per row
    c' = (1 - i) * c + i * tanh (((z · Wzc + bzc) + h · Whc) + bhc)
    o  = σ (((((z · wzo + bzo) + h · who) + bho) + c' · wco) + bco)   the output gate, one number per row
    h' = o * tanh c'

  The row's results are `(h', c', r)`. Every sum is written in the association above, which is the one both programs
  use, so that neither commutativity nor distributivity of the extended reals is ever called on: no entry has to be
  finite for the two sides to meet.
-/
import Idealize.ShloMosaic.PureOps.Ideal

noncomputable section

open scoped BigOperators

namespace Cert.GatedCell

open Idealize.ShloMosaic

/-- The binary32 word of `1.0` denotes the real number one. -/
theorem ofBits_one : Ideal.ofBits .f32 0x3F800000#32 = 1 := by
  simp [Ideal.ofBits, Ideal.ieee, -EReal.coe_mul]; norm_num

/-- The logistic function is `1 / (1 + e^(-t))` on every extended real (`0` at `-∞`, `1` at `+∞`), also when the two
    ones are spelt as the word of `1.0`. -/
theorem logistic_eq (t : EReal) :
    Ideal.div (Ideal.ofBits .f32 0x3F800000#32) (Ideal.ofBits .f32 0x3F800000#32 + Ideal.exp (-t)) = Ideal.logistic t := by
  rw [ofBits_one]; rfl

/-- The weights every row shares: the relation vectors, and for each affine map its matrix (or column) and bias. -/
structure Weights where
  /-- The relation vectors, one per row of the matrix. -/
  rel : Fin 512 → Fin 512 → EReal
  Wx : Fin 1024 → Fin 512 → EReal
  bx : Fin 512 → EReal
  whi : Fin 512 → EReal
  bhi : EReal
  wci : Fin 512 → EReal
  bci : EReal
  Wzc : Fin 512 → Fin 512 → EReal
  bzc : Fin 512 → EReal
  Whc : Fin 512 → Fin 512 → EReal
  bhc : Fin 512 → EReal
  wzo : Fin 512 → EReal
  bzo : EReal
  who : Fin 512 → EReal
  bho : EReal
  wco : Fin 512 → EReal
  bco : EReal
  Wha : Fin 512 → Fin 512 → EReal
  bha : Fin 512 → EReal
  Wxa : Fin 512 → Fin 512 → EReal
  bxa : Fin 512 → EReal

variable (W : Weights) (xb : Fin 1024 → EReal) (h c : Fin 512 → EReal)

/-- The projected input `x̄ · Wx + bx`. -/
def proj (j : Fin 512) : EReal := (∑ k : Fin 1024, xb k * W.Wx k j) + W.bx j

/-- The attention weight of relation `n`. -/
def attn (n : Fin 512) : EReal :=
  Ideal.logistic ((((∑ k : Fin 512, h k * W.Wha k n) + W.bha n) + ∑ k : Fin 512, proj W xb k * W.Wxa k n) + W.bxa n)

/-- The attended mixture of the relation vectors. -/
def mix (j : Fin 512) : EReal := ∑ n : Fin 512, attn W xb h n * W.rel n j

/-- The hidden state moved by the mixture. -/
def moved (j : Fin 512) : EReal := h j + mix W xb h j

/-- The input gate. -/
def inGate : EReal :=
  Ideal.logistic ((((∑ k : Fin 512, h k * W.whi k) + W.bhi) + ∑ k : Fin 512, c k * W.wci k) + W.bci)

/-- The candidate memory, before it is gated in. -/
def cand (j : Fin 512) : EReal :=
  Ideal.tanh ((((∑ k : Fin 512, moved W xb h k * W.Wzc k j) + W.bzc j) + ∑ k : Fin 512, h k * W.Whc k j) + W.bhc j)

/-- The new memory. -/
def newMem (j : Fin 512) : EReal := (1 - inGate W h c) * c j + inGate W h c * cand W xb h j

/-- The output gate. -/
def outGate : EReal :=
  Ideal.logistic ((((((∑ k : Fin 512, moved W xb h k * W.wzo k) + W.bzo) + ∑ k : Fin 512, h k * W.who k) + W.bho)
    + ∑ k : Fin 512, newMem W xb h c k * W.wco k) + W.bco)

/-- The new hidden state. -/
def newHid (j : Fin 512) : EReal := outGate W xb h c * Ideal.tanh (newMem W xb h c j)

end Cert.GatedCell

end
-- ==== Proof.CellArrays.lean ====
/-
  The gated cell over whole arrays: the weights and the rows read off the argument arrays, and the three result arrays
  as functions of them, entry by entry. Entry `(r, j)` of each result is the cell's value for batch row `r` at
  coordinate `j`: it depends on row `r` of `x̄`, `h` and `c` only, and on the weights.
-/
import Idealize.ShloMosaic.Lib.ValueIdx
import proofs.«109079_j2525440770621_1_alg».proof.Proof.Cell

noncomputable section

namespace Cert.GatedCell

open Idealize.ShloMosaic Idealize.ShloMosaic.ValueIdx

/-- A matrix of extended reals of `a` rows and `b` columns. -/
abbrev Mat (a b : Nat) := FVec Ideal ⟨2, ![a, b]⟩ .f32
/-- A vector of extended reals of length `a`. -/
abbrev Vc (a : Nat) := FVec Ideal ⟨1, ![a]⟩ .f32

/-- Row `r` of a matrix. -/
def rowOf {a b : Nat} (x : Mat a b) (r : Fin a) : Fin b → EReal := fun k => x (ix2 r k)
/-- A matrix as a function of its two coordinates. -/
def matOf {a b : Nat} (x : Mat a b) : Fin a → Fin b → EReal := fun k j => x (ix2 k j)
/-- The one column of a matrix of one column. -/
def colOf {a : Nat} (x : Mat a 1) : Fin a → EReal := fun k => x (ix2 k 0)
/-- A vector as a function of its coordinate. -/
def vecOf {a : Nat} (x : Vc a) : Fin a → EReal := fun j => x (ix1 j)
/-- The one entry of a vector of length one. -/
def oneOf (x : Vc 1) : EReal := x (ix1 0)
/-- The one row of a matrix of one row. -/
def flatOf {b : Nat} (x : Mat 1 b) : Fin b → EReal := fun j => x (ix2 0 j)
/-- The one entry of a matrix of one row and one column. -/
def unitOf (x : Mat 1 1) : EReal := x (ix2 0 0)

/-- The weights, read off the argument arrays: each bias a vector. -/
def weightsOf (rel : Mat 512 512) (Wx : Mat 1024 512) (bx : Vc 512) (whi : Mat 512 1) (bhi : Vc 1) (wci : Mat 512 1) (bci : Vc 1)
    (Wzc : Mat 512 512) (bzc : Vc 512) (Whc : Mat 512 512) (bhc : Vc 512) (wzo : Mat 512 1) (bzo : Vc 1) (who : Mat 512 1) (bho : Vc 1)
    (wco : Mat 512 1) (bco : Vc 1) (Wha : Mat 512 512) (bha : Vc 512) (Wxa : Mat 512 512) (bxa : Vc 512) : Weights where
  rel := matOf rel
  Wx := matOf Wx
  bx := vecOf bx
  whi := colOf whi
  bhi := oneOf bhi
  wci := colOf wci
  bci := oneOf bci
  Wzc := matOf Wzc
  bzc := vecOf bzc
  Whc := matOf Whc
  bhc := vecOf bhc
  wzo := colOf wzo
  bzo := oneOf bzo
  who := colOf who
  bho := oneOf bho
  wco := colOf wco
  bco := oneOf bco
  Wha := matOf Wha
  bha := vecOf bha
  Wxa := matOf Wxa
  bxa := vecOf bxa

/-- The weights, read off arrays in which each bias is laid out as a matrix of one row. -/
def weightsOfRows (rel : Mat 512 512) (Wx : Mat 1024 512) (bx : Mat 1 512) (whi : Mat 512 1) (bhi : Mat 1 1) (wci : Mat 512 1) (bci : Mat 1 1)
    (Wzc : Mat 512 512) (bzc : Mat 1 512) (Whc : Mat 512 512) (bhc : Mat 1 512) (wzo : Mat 512 1) (bzo : Mat 1 1) (who : Mat 512 1) (bho : Mat 1 1)
    (wco : Mat 512 1) (bco : Mat 1 1) (Wha : Mat 512 512) (bha : Mat 1 512) (Wxa : Mat 512 512) (bxa : Mat 1 512) : Weights where
  rel := matOf rel
  Wx := matOf Wx
  bx := flatOf bx
  whi := colOf whi
  bhi := unitOf bhi
  wci := colOf wci
  bci := unitOf bci
  Wzc := matOf Wzc
  bzc := flatOf bzc
  Whc := matOf Whc
  bhc := flatOf bhc
  wzo := colOf wzo
  bzo := unitOf bzo
  who := colOf who
  bho := unitOf bho
  wco := colOf wco
  bco := unitOf bco
  Wha := matOf Wha
  bha := flatOf bha
  Wxa := matOf Wxa
  bxa := flatOf bxa

variable (W : Weights) {n : Nat} (xb : Mat n 1024) (h c : Mat n 512)

/-- The new hidden states of `n` rows, as one array. -/
def hidArr : Mat n 512 := fun i => newHid W (rowOf xb (i 0)) (rowOf h (i 0)) (rowOf c (i 0)) (i 1)
/-- The new memories of `n` rows, as one array. -/
def memArr : Mat n 512 := fun i => newMem W (rowOf xb (i 0)) (rowOf h (i 0)) (rowOf c (i 0)) (i 1)
/-- The attended mixtures of `n` rows, as one array. -/
def mixArr : Mat n 512 := fun i => mix W (rowOf xb (i 0)) (rowOf h (i 0)) (i 1)

theorem hidArr_apply (r : Fin n) (j : Fin 512) : hidArr W xb h c (ix2 r j) = newHid W (rowOf xb r) (rowOf h r) (rowOf c r) j := rfl
theorem memArr_apply (r : Fin n) (j : Fin 512) : memArr W xb h c (ix2 r j) = newMem W (rowOf xb r) (rowOf h r) (rowOf c r) j := rfl
theorem mixArr_apply (r : Fin n) (j : Fin 512) : mixArr W xb h (ix2 r j) = mix W (rowOf xb r) (rowOf h r) j := rfl

end Cert.GatedCell

end
-- ==== Proof.KerRows.lean ====
/-
  One grid point of the kernel is the gated cell on 512 rows.

  The body loads the point's blocks of `x̄`, `h` and `c` (512 rows each) and the whole weight arrays, each bias laid out as
  a matrix of one row, and stores three blocks. Read at an entry `(p, j)`, each stored block is the cell's value for the
  block's row `p`: a matrix product into a zero accumulator is the sum over the contracted coordinate of the products, a
  change of float format is the identity on the extended reals, a bias of one row is read at its column wherever it is
  broadcast, and the logistic and hyperbolic tangent are applied entry by entry.
-/
import proofs.«109079_j2525440770621_1_alg».proof.Proof.Gen.KernelIdeal.Frame
import proofs.«109079_j2525440770621_1_alg».proof.Proof.CellArrays
import Idealize.ShloMosaic.Lib.Pipeline.Value
import Idealize.ShloMosaic.Lib.ValueLayout
import Idealize.ShloMosaic.PureOps.Ideal.Laws

noncomputable section

open scoped BigOperators

namespace Cert.KernelIdeal.Rows

open Cert.KernelIdeal Cert.KernelIdeal.Gen Cert.GatedCell Idealize.ShloMosaic Idealize.ShloMosaic.ValueIdx

/-! ## A column broadcast over many columns -/

/-- An `[a, 1]` array broadcast to `[a, b]` reads, at `(p, c)`, the operand's one column at `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## A matrix product into a zero accumulator, read at an entry

For each of the body's three products of shapes, the four coordinate facts of the contraction (an entry `(p, j)` of the
result pairs the left operand's `(p, k)` with the right operand's `(k, j)`), then the product as a sum over `k`. -/

theorem lhs_x_0 (i : S512x512.Idx) (q : dot_S512x1024_S1024x512_S512x512_1_0_0_1_n_n.contr.Idx) :
    (dot_S512x1024_S1024x512_S512x512_1_0_0_1_n_n.lhsIdx i q 0).val = (i 0).val := by
  unfold DotDims.lhsIdx
  rw [dif_neg (show ¬(0 : Fin S512x1024.rank) ∈ dot_S512x1024_S1024x512_S512x512_1_0_0_1_n_n.lhsBatch by decide), dif_pos (show (0 : Fin S512x1024.rank) ∈ dot_S512x1024_S1024x512_S512x512_1_0_0_1_n_n.lhsNonContracting by decide)]
  rfl
theorem lhs_x_1 (i : S512x512.Idx) (q : dot_S512x1024_S1024x512_S512x512_1_0_0_1_n_n.contr.Idx) :
    (dot_S512x1024_S1024x512_S512x512_1_0_0_1_n_n.lhsIdx i q 1).val = (q ⟨0, by decide⟩).val :=
  dot_S512x1024_S1024x512_S512x512_1_0_0_1_n_n.lhsIdx_val_of_single rfl i q
theorem rhs_x_0 (i : S512x512.Idx) (q : dot_S512x1024_S1024x512_S512x512_1_0_0_1_n_n.contr.Idx) :
    (dot_S512x1024_S1024x512_S512x512_1_0_0_1_n_n.rhsIdx i q 0).val = (q ⟨0, by decide⟩).val :=
  dot_S512x1024_S1024x512_S512x512_1_0_0_1_n_n.rhsIdx_val_of_single rfl i q
theorem rhs_x_1 (i : S512x512.Idx) (q : dot_S512x1024_S1024x512_S512x512_1_0_0_1_n_n.contr.Idx) :
    (dot_S512x1024_S1024x512_S512x512_1_0_0_1_n_n.rhsIdx i q 1).val = (i 1).val := by
  unfold DotDims.rhsIdx
  rw [dif_neg (show ¬(1 : Fin S1024x512.rank) ∈ dot_S512x1024_S1024x512_S512x512_1_0_0_1_n_n.rhsBatch by decide), dif_pos (show (1 : Fin S1024x512.rank) ∈ dot_S512x1024_S1024x512_S512x512_1_0_0_1_n_n.rhsNonContracting by decide)]
  rfl

/-- A 512 × 1024 block times a 1024 × 512 matrix. -/
theorem matmul_x_apply {φ₁ φ₂ : FTy} (a : FVec Ideal S512x1024 φ₁) (w : FVec Ideal S1024x512 φ₂) (p : Fin 512) (j : Fin 512) :
    matmul dot_S512x1024_S1024x512_S512x512_1_0_0_1_n_n none a w (constant S512x512 .f32 0x00000000#32) (ix2 p j) = ∑ k : Fin 1024, a (ix2 p k) * w (ix2 k j) := by
  simp only [matmul]
  rw [Ideal.matmul_constant_zero_apply, ← Equiv.sum_comp (contrEquiv1 dot_S512x1024_S1024x512_S512x512_1_0_0_1_n_n 1024 rfl rfl).symm]
  refine Finset.sum_congr rfl fun k _ => ?_
  have hk := contrEquiv1_symm_val dot_S512x1024_S1024x512_S512x512_1_0_0_1_n_n 1024 rfl rfl k
  have el : dot_S512x1024_S1024x512_S512x512_1_0_0_1_n_n.lhsIdx (ix2 p j) ((contrEquiv1 dot_S512x1024_S1024x512_S512x512_1_0_0_1_n_n 1024 rfl rfl).symm k) = ix2 p k := funext fun ax => Fin.ext (by
    match ax with
    | ⟨0, _⟩ => exact lhs_x_0 _ _
    | ⟨1, _⟩ => exact (lhs_x_1 _ _).trans hk)
  have er : dot_S512x1024_S1024x512_S512x512_1_0_0_1_n_n.rhsIdx (ix2 p j) ((contrEquiv1 dot_S512x1024_S1024x512_S512x512_1_0_0_1_n_n 1024 rfl rfl).symm k) = ix2 k j := funext fun ax => Fin.ext (by
    match ax with
    | ⟨0, _⟩ => exact (rhs_x_0 _ _).trans hk
    | ⟨1, _⟩ => exact rhs_x_1 _ _)
  rw [el, er]

theorem lhs_s_0 (i : S512x512.Idx) (q : dot_S512x512_S512x512_S512x512_1_0_0_1_n_n.contr.Idx) :
    (dot_S512x512_S512x512_S512x512_1_0_0_1_n_n.lhsIdx i q 0).val = (i 0).val := by
  unfold DotDims.lhsIdx
  rw [dif_neg (show ¬(0 : Fin S512x512.rank) ∈ dot_S512x512_S512x512_S512x512_1_0_0_1_n_n.lhsBatch by decide), dif_pos (show (0 : Fin S512x512.rank) ∈ dot_S512x512_S512x512_S512x512_1_0_0_1_n_n.lhsNonContracting by decide)]
  rfl
theorem lhs_s_1 (i : S512x512.Idx) (q : dot_S512x512_S512x512_S512x512_1_0_0_1_n_n.contr.Idx) :
    (dot_S512x512_S512x512_S512x512_1_0_0_1_n_n.lhsIdx i q 1).val = (q ⟨0, by decide⟩).val :=
  dot_S512x512_S512x512_S512x512_1_0_0_1_n_n.lhsIdx_val_of_single rfl i q
theorem rhs_s_0 (i : S512x512.Idx) (q : dot_S512x512_S512x512_S512x512_1_0_0_1_n_n.contr.Idx) :
    (dot_S512x512_S512x512_S512x512_1_0_0_1_n_n.rhsIdx i q 0).val = (q ⟨0, by decide⟩).val :=
  dot_S512x512_S512x512_S512x512_1_0_0_1_n_n.rhsIdx_val_of_single rfl i q
theorem rhs_s_1 (i : S512x512.Idx) (q : dot_S512x512_S512x512_S512x512_1_0_0_1_n_n.contr.Idx) :
    (dot_S512x512_S512x512_S512x512_1_0_0_1_n_n.rhsIdx i q 1).val = (i 1).val := by
  unfold DotDims.rhsIdx
  rw [dif_neg (show ¬(1 : Fin S512x512.rank) ∈ dot_S512x512_S512x512_S512x512_1_0_0_1_n_n.rhsBatch by decide), dif_pos (show (1 : Fin S512x512.rank) ∈ dot_S512x512_S512x512_S512x512_1_0_0_1_n_n.rhsNonContracting by decide)]
  rfl

/-- A 512 × 512 block times a 512 × 512 matrix. -/
theorem matmul_s_apply {φ₁ φ₂ : FTy} (a : FVec Ideal S512x512 φ₁) (w : FVec Ideal S512x512 φ₂) (p : Fin 512) (j : Fin 512) :
    matmul dot_S512x512_S512x512_S512x512_1_0_0_1_n_n none a w (constant S512x512 .f32 0x00000000#32) (ix2 p j) = ∑ k : Fin 512, a (ix2 p k) * w (ix2 k j) := by
  simp only [matmul]
  rw [Ideal.matmul_constant_zero_apply, ← Equiv.sum_comp (contrEquiv1 dot_S512x512_S512x512_S512x512_1_0_0_1_n_n 512 rfl rfl).symm]
  refine Finset.sum_congr rfl fun k _ => ?_
  have hk := contrEquiv1_symm_val dot_S512x512_S512x512_S512x512_1_0_0_1_n_n 512 rfl rfl k
  have el : dot_S512x512_S512x512_S512x512_1_0_0_1_n_n.lhsIdx (ix2 p j) ((contrEquiv1 dot_S512x512_S512x512_S512x512_1_0_0_1_n_n 512 rfl rfl).symm k) = ix2 p k := funext fun ax => Fin.ext (by
    match ax with
    | ⟨0, _⟩ => exact lhs_s_0 _ _
    | ⟨1, _⟩ => exact (lhs_s_1 _ _).trans hk)
  have er : dot_S512x512_S512x512_S512x512_1_0_0_1_n_n.rhsIdx (ix2 p j) ((contrEquiv1 dot_S512x512_S512x512_S512x512_1_0_0_1_n_n 512 rfl rfl).symm k) = ix2 k j := funext fun ax => Fin.ext (by
    match ax with
    | ⟨0, _⟩ => exact (rhs_s_0 _ _).trans hk
    | ⟨1, _⟩ => exact rhs_s_1 _ _)
  rw [el, er]

theorem lhs_c_0 (i : S512x1.Idx) (q : dot_S512x512_S512x1_S512x1_1_0_0_1_n_n.contr.Idx) :
    (dot_S512x512_S512x1_S512x1_1_0_0_1_n_n.lhsIdx i q 0).val = (i 0).val := by
  unfold DotDims.lhsIdx
  rw [dif_neg (show ¬(0 : Fin S512x512.rank) ∈ dot_S512x512_S512x1_S512x1_1_0_0_1_n_n.lhsBatch by decide), dif_pos (show (0 : Fin S512x512.rank) ∈ dot_S512x512_S512x1_S512x1_1_0_0_1_n_n.lhsNonContracting by decide)]
  rfl
theorem lhs_c_1 (i : S512x1.Idx) (q : dot_S512x512_S512x1_S512x1_1_0_0_1_n_n.contr.Idx) :
    (dot_S512x512_S512x1_S512x1_1_0_0_1_n_n.lhsIdx i q 1).val = (q ⟨0, by decide⟩).val :=
  dot_S512x512_S512x1_S512x1_1_0_0_1_n_n.lhsIdx_val_of_single rfl i q
theorem rhs_c_0 (i : S512x1.Idx) (q : dot_S512x512_S512x1_S512x1_1_0_0_1_n_n.contr.Idx) :
    (dot_S512x512_S512x1_S512x1_1_0_0_1_n_n.rhsIdx i q 0).val = (q ⟨0, by decide⟩).val :=
  dot_S512x512_S512x1_S512x1_1_0_0_1_n_n.rhsIdx_val_of_single rfl i q
theorem rhs_c_1 (i : S512x1.Idx) (q : dot_S512x512_S512x1_S512x1_1_0_0_1_n_n.contr.Idx) :
    (dot_S512x512_S512x1_S512x1_1_0_0_1_n_n.rhsIdx i q 1).val = (i 1).val := by
  unfold DotDims.rhsIdx
  rw [dif_neg (show ¬(1 : Fin S512x1.rank) ∈ dot_S512x512_S512x1_S512x1_1_0_0_1_n_n.rhsBatch by decide), dif_pos (show (1 : Fin S512x1.rank) ∈ dot_S512x512_S512x1_S512x1_1_0_0_1_n_n.rhsNonContracting by decide)]
  rfl

/-- A 512 × 512 block times a column of 512 entries. -/
theorem matmul_c_apply {φ₁ φ₂ : FTy} (a : FVec Ideal S512x512 φ₁) (w : FVec Ideal S512x1 φ₂) (p : Fin 512) (j : Fin 1) :
    matmul dot_S512x512_S512x1_S512x1_1_0_0_1_n_n none a w (constant S512x1 .f32 0x00000000#32) (ix2 p j) = ∑ k : Fin 512, a (ix2 p k) * w (ix2 k j) := by
  simp only [matmul]
  rw [Ideal.matmul_constant_zero_apply, ← Equiv.sum_comp (contrEquiv1 dot_S512x512_S512x1_S512x1_1_0_0_1_n_n 512 rfl rfl).symm]
  refine Finset.sum_congr rfl fun k _ => ?_
  have hk := contrEquiv1_symm_val dot_S512x512_S512x1_S512x1_1_0_0_1_n_n 512 rfl rfl k
  have el : dot_S512x512_S512x1_S512x1_1_0_0_1_n_n.lhsIdx (ix2 p j) ((contrEquiv1 dot_S512x512_S512x1_S512x1_1_0_0_1_n_n 512 rfl rfl).symm k) = ix2 p k := funext fun ax => Fin.ext (by
    match ax with
    | ⟨0, _⟩ => exact lhs_c_0 _ _
    | ⟨1, _⟩ => exact (lhs_c_1 _ _).trans hk)
  have er : dot_S512x512_S512x1_S512x1_1_0_0_1_n_n.rhsIdx (ix2 p j) ((contrEquiv1 dot_S512x512_S512x1_S512x1_1_0_0_1_n_n 512 rfl rfl).symm k) = ix2 k j := funext fun ax => Fin.ext (by
    match ax with
    | ⟨0, _⟩ => exact (rhs_c_0 _ _).trans hk
    | ⟨1, _⟩ => exact rhs_c_1 _ _)
  rw [el, er]

/-! ## The entrywise operations at an entry -/

theorem logistic_apply {s : Shape} (x : FVec Ideal s .f32) (i : s.Idx) : logistic x i = Ideal.logistic (x i) := rfl
theorem tanh_apply {s : Shape} (x : FVec Ideal s .f32) (i : s.Idx) : tanh x i = Ideal.tanh (x i) := rfl

/-! ## The body's values at an entry

`b0 … b23` are the blocks the body loads, in the order of the call's operands: `b0`, `b2`, `b3` the point's 512 rows of
`x̄`, `h` and `c`, the others the weight arrays. -/

variable (b0 : Vec Ideal S512x1024 .f32) (b1 b2 b3 : Vec Ideal S512x512 .f32) (b4 : Vec Ideal S1024x512 .f32) (b5 : Vec Ideal S1x512 .f32) (b6 : Vec Ideal S512x1 .f32) (b7 : Vec Ideal S1x1 .f32) (b8 : Vec Ideal S512x1 .f32) (b9 : Vec Ideal S1x1 .f32) (b10 : Vec Ideal S512x512 .f32) (b11 : Vec Ideal S1x512 .f32) (b12 : Vec Ideal S512x512 .f32) (b13 : Vec Ideal S1x512 .f32) (b14 : Vec Ideal S512x1 .f32) (b15 : Vec Ideal S1x1 .f32) (b16 : Vec Ideal S512x1 .f32) (b17 : Vec Ideal S1x1 .f32) (b18 : Vec Ideal S512x1 .f32) (b19 : Vec Ideal S1x1 .f32) (b20 : Vec Ideal S512x512 .f32) (b21 : Vec Ideal S1x512 .f32) (b22 : Vec Ideal S512x512 .f32) (b23 : Vec Ideal S1x512 .f32)

include b0 b1 b2 b3 b4 b5 b6 b7 b8 b9 b10 b11 b12 b13 b14 b15 b16 b17 b18 b19 b20 b21 b22 b23

omit b0 b2 b3 in
/-- The weights as the body finds them in its blocks. -/
abbrev blockWeights : Weights := weightsOfRows b1 b4 b5 b6 b7 b8 b9 b10 b11 b12 b13 b14 b15 b16 b17 b18 b19 b20 b21 b22 b23

omit b0 b1 b2 b3 b4 b5 b6 b7 b8 b9 b10 b11 b12 b13 b14 b15 b16 b17 b18 b19 b20 b21 b22 b23 in
/-- The whole-block rectangle starts at the origin. -/
theorem origin2 : (![0, 0] : Fin 2 → Nat) = fun _ => 0 := funext fun a => by fin_cases a <;> rfl

/-- The attended mixture of row `p`. -/
theorem mix_apply (p j : Fin 512) : (k0_pay1 b0 b2 b4 b5 b20 b21 b22 b23 b1) (ix2 p j) = mix (blockWeights b1 b4 b5 b6 b7 b8 b9 b10 b11 b12 b13 b14 b15 b16 b17 b18 b19 b20 b21 b22 b23) (rowOf b0 p) (rowOf b2 p) j := by
  unfold k0_pay1
  simp only [matmul_s_apply, matmul_x_apply, addf_apply, truncf_apply, logistic_apply, shapeCast_self, broadcastTo_1b_ab_apply]
  unfold mix attn proj
  simp only [blockWeights, weightsOfRows, matOf, flatOf, colOf, unitOf, rowOf]

/-- The hidden state of row `p` moved by its mixture. -/
theorem moved_apply (p j : Fin 512) : (k0_pay2 b0 b2 b4 b5 b20 b21 b22 b23 b1) (ix2 p j) = moved (blockWeights b1 b4 b5 b6 b7 b8 b9 b10 b11 b12 b13 b14 b15 b16 b17 b18 b19 b20 b21 b22 b23) (rowOf b0 p) (rowOf b2 p) j := by
  unfold k0_pay2
  simp only [addf_apply, mix_apply b0 b1 b2 b3 b4 b5 b6 b7 b8 b9 b10 b11 b12 b13 b14 b15 b16 b17 b18 b19 b20 b21 b22 b23]
  unfold moved
  simp only [rowOf]

/-- The input gate of row `p`. -/
theorem inGate_apply (p : Fin 512) : (k0_pay3 b2 b3 b6 b7 b8 b9) (ix2 p (0 : Fin 1)) = inGate (blockWeights b1 b4 b5 b6 b7 b8 b9 b10 b11 b12 b13 b14 b15 b16 b17 b18 b19 b20 b21 b22 b23) (rowOf b2 p) (rowOf b3 p) := by
  unfold k0_pay3
  simp only [matmul_c_apply, addf_apply, truncf_apply, logistic_apply, shapeCast_self, broadcastTo_1b_ab_apply]
  unfold inGate
  simp only [blockWeights, weightsOfRows, matOf, flatOf, colOf, unitOf, rowOf]

/-- The part of row `p`'s old memory that the input gate keeps. -/
theorem kept_apply (p j : Fin 512) : (k0_pay4 b2 b3 b6 b7 b8 b9) (ix2 p j) = (1 - inGate (blockWeights b1 b4 b5 b6 b7 b8 b9 b10 b11 b12 b13 b14 b15 b16 b17 b18 b19 b20 b21 b22 b23) (rowOf b2 p) (rowOf b3 p)) * b3 (ix2 p j) := by
  unfold k0_pay4
  simp only [mulf_apply, subf_apply, broadcast_apply, broadcastTo_a1_ab_apply, inGate_apply b0 b1 b2 b3 b4 b5 b6 b7 b8 b9 b10 b11 b12 b13 b14 b15 b16 b17 b18 b19 b20 b21 b22 b23]
  rw [show (FloatOps.ofBits (F := Ideal) .f32 0x3F800000#32 : EReal) = 1 from ofBits_one]

/-- The candidate memory of row `p`. -/
theorem cand_apply (p j : Fin 512) : (k0_pay5 b2 (k0_pay2 b0 b2 b4 b5 b20 b21 b22 b23 b1) b10 b11 b12 b13) (ix2 p j) = cand (blockWeights b1 b4 b5 b6 b7 b8 b9 b10 b11 b12 b13 b14 b15 b16 b17 b18 b19 b20 b21 b22 b23) (rowOf b0 p) (rowOf b2 p) j := by
  unfold k0_pay5
  simp only [matmul_s_apply, addf_apply, truncf_apply, tanh_apply, shapeCast_self, broadcastTo_1b_ab_apply, moved_apply b0 b1 b2 b3 b4 b5 b6 b7 b8 b9 b10 b11 b12 b13 b14 b15 b16 b17 b18 b19 b20 b21 b22 b23]
  unfold cand
  simp only [blockWeights, weightsOfRows, matOf, flatOf, colOf, unitOf, rowOf]

/-- The new memory of row `p`. -/
theorem newMem_apply (p j : Fin 512) : (k0_pay6 (k0_pay3 b2 b3 b6 b7 b8 b9) (k0_pay4 b2 b3 b6 b7 b8 b9) (k0_pay5 b2 (k0_pay2 b0 b2 b4 b5 b20 b21 b22 b23 b1) b10 b11 b12 b13)) (ix2 p j) = newMem (blockWeights b1 b4 b5 b6 b7 b8 b9 b10 b11 b12 b13 b14 b15 b16 b17 b18 b19 b20 b21 b22 b23) (rowOf b0 p) (rowOf b2 p) (rowOf b3 p) j := by
  unfold k0_pay6
  simp only [mulf_apply, addf_apply, broadcastTo_a1_ab_apply, inGate_apply b0 b1 b2 b3 b4 b5 b6 b7 b8 b9 b10 b11 b12 b13 b14 b15 b16 b17 b18 b19 b20 b21 b22 b23, kept_apply b0 b1 b2 b3 b4 b5 b6 b7 b8 b9 b10 b11 b12 b13 b14 b15 b16 b17 b18 b19 b20 b21 b22 b23, cand_apply b0 b1 b2 b3 b4 b5 b6 b7 b8 b9 b10 b11 b12 b13 b14 b15 b16 b17 b18 b19 b20 b21 b22 b23]
  unfold newMem
  simp only [rowOf]

/-- The new hidden state of row `p`. -/
theorem newHid_apply (p j : Fin 512) : (k0_pay7 b2 (k0_pay2 b0 b2 b4 b5 b20 b21 b22 b23 b1) (k0_pay3 b2 b3 b6 b7 b8 b9) (k0_pay4 b2 b3 b6 b7 b8 b9) (k0_pay5 b2 (k0_pay2 b0 b2 b4 b5 b20 b21 b22 b23 b1) b10 b11 b12 b13) b14 b15 b16 b17 b18 b19) (ix2 p j) = newHid (blockWeights b1 b4 b5 b6 b7 b8 b9 b10 b11 b12 b13 b14 b15 b16 b17 b18 b19 b20 b21 b22 b23) (rowOf b0 p) (rowOf b2 p) (rowOf b3 p) j := by
  unfold k0_pay7
  simp only [matmul_c_apply, mulf_apply, addf_apply, truncf_apply, logistic_apply, tanh_apply, shapeCast_self, broadcastTo_1b_ab_apply, broadcastTo_a1_ab_apply, moved_apply b0 b1 b2 b3 b4 b5 b6 b7 b8 b9 b10 b11 b12 b13 b14 b15 b16 b17 b18 b19 b20 b21 b22 b23, newMem_apply b0 b1 b2 b3 b4 b5 b6 b7 b8 b9 b10 b11 b12 b13 b14 b15 b16 b17 b18 b19 b20 b21 b22 b23]
  unfold newHid outGate
  simp only [blockWeights, weightsOfRows, matOf, flatOf, colOf, unitOf, rowOf]

/-! ## The three stored blocks -/

/-- The block stored for the new hidden states. -/
theorem out24_eq : out0_24 b0 b1 b2 b3 b4 b5 b6 b7 b8 b9 b10 b11 b12 b13 b14 b15 b16 b17 b18 b19 b20 b21 b22 b23 = hidArr (blockWeights b1 b4 b5 b6 b7 b8 b9 b10 b11 b12 b13 b14 b15 b16 b17 b18 b19 b20 b21 b22 b23) b0 b2 b3 := by
  funext i
  obtain ⟨p, j, rfl⟩ : ∃ (p : Fin 512) (j : Fin 512), i = ix2 p j := ⟨i 0, i 1, eq_ix2 i⟩
  rw [hidArr_apply]
  unfold out0_24
  rw [View.canon_unit_zero origin2]
  simp only [View.ld_unit_zero (S := S512x1024) origin2, View.ld_unit_zero (S := S512x512) origin2, View.ld_unit_zero (S := S1024x512) origin2, View.ld_unit_zero (S := S1x512) origin2, View.ld_unit_zero (S := S512x1) origin2, View.ld_unit_zero (S := S1x1) origin2]
  exact newHid_apply b0 b1 b2 b3 b4 b5 b6 b7 b8 b9 b10 b11 b12 b13 b14 b15 b16 b17 b18 b19 b20 b21 b22 b23 p j

/-- The block stored for the new memories. -/
theorem out25_eq : out0_25 b0 b1 b2 b3 b4 b5 b6 b7 b8 b9 b10 b11 b12 b13 b14 b15 b16 b17 b18 b19 b20 b21 b22 b23 = memArr (blockWeights b1 b4 b5 b6 b7 b8 b9 b10 b11 b12 b13 b14 b15 b16 b17 b18 b19 b20 b21 b22 b23) b0 b2 b3 := by
  funext i
  obtain ⟨p, j, rfl⟩ : ∃ (p : Fin 512) (j : Fin 512), i = ix2 p j := ⟨i 0, i 1, eq_ix2 i⟩
  rw [memArr_apply]
  unfold out0_25
  rw [View.canon_unit_zero origin2]
  simp only [View.ld_unit_zero (S := S512x1024) origin2, View.ld_unit_zero (S := S512x512) origin2, View.ld_unit_zero (S := S1024x512) origin2, View.ld_unit_zero (S := S1x512) origin2, View.ld_unit_zero (S := S512x1) origin2, View.ld_unit_zero (S := S1x1) origin2]
  exact newMem_apply b0 b1 b2 b3 b4 b5 b6 b7 b8 b9 b10 b11 b12 b13 b14 b15 b16 b17 b18 b19 b20 b21 b22 b23 p j

/-- The block stored for the attended mixtures. -/
theorem out26_eq : out0_26 b0 b1 b2 b3 b4 b5 b6 b7 b8 b9 b10 b11 b12 b13 b14 b15 b16 b17 b18 b19 b20 b21 b22 b23 = mixArr (blockWeights b1 b4 b5 b6 b7 b8 b9 b10 b11 b12 b13 b14 b15 b16 b17 b18 b19 b20 b21 b22 b23) b0 b2 := by
  funext i
  obtain ⟨p, j, rfl⟩ : ∃ (p : Fin 512) (j : Fin 512), i = ix2 p j := ⟨i 0, i 1, eq_ix2 i⟩
  rw [mixArr_apply]
  unfold out0_26
  rw [View.canon_unit_zero origin2]
  simp only [View.ld_unit_zero (S := S512x1024) origin2, View.ld_unit_zero (S := S512x512) origin2, View.ld_unit_zero (S := S1024x512) origin2, View.ld_unit_zero (S := S1x512) origin2, View.ld_unit_zero (S := S512x1) origin2, View.ld_unit_zero (S := S1x1) origin2]
  exact mix_apply b0 b1 b2 b3 b4 b5 b6 b7 b8 b9 b10 b11 b12 b13 b14 b15 b16 b17 b18 b19 b20 b21 b22 b23 p j

end Cert.KernelIdeal.Rows

end
-- ==== Proof.Blocks.lean ====
/-
  From the grid points to the arrays.

  The 64 grid points tile the 32768 rows in blocks of 512: point `t` reads rows `512 t … 512 t + 511` of `x̄`, `h` and `c`
  and the whole weight arrays (each bias reshaped on the host to one row before the launch), and writes back the same
  rows of the three results. Since the cell acts row by row, what point `t` writes is block `t` of the cell applied to
  the whole arrays; the blocks cover every row, so after the run each result array is the cell of the argument arrays.
-/
import proofs.«109079_j2525440770621_1_alg».proof.Proof.Gen.KernelIdeal.Value
import proofs.«109079_j2525440770621_1_alg».proof.Proof.KerRows

noncomputable section

namespace Cert.KernelIdeal.Blocks

open Cert.KernelIdeal Cert.KernelIdeal.Gen Cert.KernelIdeal.Value Cert.KernelIdeal.Rows Cert.GatedCell
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The weights, read off core `c`'s argument arrays as launched. -/
abbrev argWeights (c : Dev nD) : Weights := weightsOf (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23))

/-! ## The index maps

Decided once over the 64 grid points. -/

/-- At point `t` the windows of `x̄`, `h`, `c` and of the three results are at block `(t, 0)`. -/
theorem idx_moving : ∀ t : Fin cfg0.N,
    (win0_0.index t (0 : Fin 2) = t.val ∧ win0_0.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_24.index t (0 : Fin 2) = t.val ∧ win0_24.index t (1 : Fin 2) = 0)
    ∧ (win0_25.index t (0 : Fin 2) = t.val ∧ win0_25.index t (1 : Fin 2) = 0)
    ∧ (win0_26.index t (0 : Fin 2) = t.val ∧ win0_26.index t (1 : Fin 2) = 0) :=
  (by decide +kernel : ∀ t : Fin grid0.N, _)

/-- Every weight window is at block `(0, 0)` at every point. -/
theorem idx_fixed : ∀ t : Fin cfg0.N,
    (win0_1.index t (0 : Fin 2) = 0 ∧ win0_1.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = 0 ∧ win0_11.index t (1 : Fin 2) = 0)
    ∧ (win0_12.index t (0 : Fin 2) = 0 ∧ win0_12.index t (1 : Fin 2) = 0)
    ∧ (win0_13.index t (0 : Fin 2) = 0 ∧ win0_13.index t (1 : Fin 2) = 0)
    ∧ (win0_14.index t (0 : Fin 2) = 0 ∧ win0_14.index t (1 : Fin 2) = 0)
    ∧ (win0_15.index t (0 : Fin 2) = 0 ∧ win0_15.index t (1 : Fin 2) = 0)
    ∧ (win0_16.index t (0 : Fin 2) = 0 ∧ win0_16.index t (1 : Fin 2) = 0)
    ∧ (win0_17.index t (0 : Fin 2) = 0 ∧ win0_17.index t (1 : Fin 2) = 0)
    ∧ (win0_18.index t (0 : Fin 2) = 0 ∧ win0_18.index t (1 : Fin 2) = 0)
    ∧ (win0_19.index t (0 : Fin 2) = 0 ∧ win0_19.index t (1 : Fin 2) = 0)
    ∧ (win0_20.index t (0 : Fin 2) = 0 ∧ win0_20.index t (1 : Fin 2) = 0)
    ∧ (win0_21.index t (0 : Fin 2) = 0 ∧ win0_21.index t (1 : Fin 2) = 0)
    ∧ (win0_22.index t (0 : Fin 2) = 0 ∧ win0_22.index t (1 : Fin 2) = 0)
    ∧ (win0_23.index t (0 : Fin 2) = 0 ∧ win0_23.index t (1 : Fin 2) = 0) :=
  (by decide +kernel : ∀ t : Fin grid0.N, _)

/-! ## An index of a block as an index of its array

On each axis the array's coordinate is the block's position times the block's extent plus the coordinate inside the
block. -/

/-- There are 64 grid points. -/
theorem point_lt (t : Fin cfg0.N) : t.val < 64 := lt_of_lt_of_eq t.isLt N_0

/-- Batch row `512 t + r`: row `r` of the block of point `t`. -/
def rowAt (t : Fin cfg0.N) (r : Fin 512) : Fin 32768 := ⟨t.val * 512 + r.val, by have := point_lt t; omega⟩

/-- An index into a block at block position `(0, 0)` is the same index into the array. -/
theorem idx_of_origin {n0 n1 i0 i1 : Nat} (h0 : i0 = 0) (h1 : i1 = 0) (e y : (⟨2, ![n0, n1]⟩ : Shape).Idx)
    (e0 : (e 0).val = i0 * n0 + 1 * (y 0).val) (e1 : (e 1).val = i1 * n1 + 1 * (y 1).val) : e = y := by
  subst h0 h1
  funext a; apply Fin.ext
  match a with
  | ⟨0, _⟩ => show (e 0).val = (y 0).val; omega
  | ⟨1, _⟩ => show (e 1).val = (y 1).val; omega

/-- An index `(r, k)` into the block at block position `(t, 0)`, the block 512 rows high, is the index `(512 t + r, k)`
    into the array. -/
theorem idx_of_point {n1 i0 i1 : Nat} {t : Fin cfg0.N} (h0 : i0 = t.val) (h1 : i1 = 0) (e : (⟨2, ![32768, n1]⟩ : Shape).Idx)
    (r : Fin 512) (k : Fin n1) (e0 : (e 0).val = i0 * 512 + 1 * r.val) (e1 : (e 1).val = i1 * n1 + 1 * k.val) :
    e = ix2 (rowAt t r) k := by
  subst h0 h1
  funext a; apply Fin.ext
  match a with
  | ⟨0, _⟩ => show (e 0).val = t.val * 512 + r.val; omega
  | ⟨1, _⟩ => show (e 1).val = k.val; omega

/-! ## The weight windows

Each stages a whole array at every point; a bias was reshaped to one row before the launch, and read along that row it is
the bias. -/

/-- The block of argument 1 (the relation vectors) at any point is the whole array. -/
theorem blk1 (c : Dev nD) (t : Fin cfg0.N) : (iblk m c 1 t : Vec Ideal S512x512 .f32) = m ((c : Thread nD τ).loc main_arg1) := by
  funext y
  obtain ⟨h0, h1⟩ := (idx_fixed t).1
  show V m c main_arg1 (((cfg0.win 1).blk t).view.emb y) = _
  rw [V_main_arg1]
  exact congrArg _ (idx_of_origin h0 h1 _ _ rfl rfl)

/-- The block of argument 4 (the input projection's matrix) at any point is the whole array. -/
theorem blk4 (c : Dev nD) (t : Fin cfg0.N) : (iblk m c 4 t : Vec Ideal S1024x512 .f32) = m ((c : Thread nD τ).loc main_arg4) := by
  funext y
  obtain ⟨h0, h1⟩ := (idx_fixed t).2.1
  show V m c main_arg4 (((cfg0.win 4).blk t).view.emb y) = _
  rw [V_main_arg4]
  exact congrArg _ (idx_of_origin h0 h1 _ _ rfl rfl)

/-- The block of argument 6 (the input gate's column on `h`) at any point is the whole array. -/
theorem blk6 (c : Dev nD) (t : Fin cfg0.N) : (iblk m c 6 t : Vec Ideal S512x1 .f32) = m ((c : Thread nD τ).loc main_arg6) := by
  funext y
  obtain ⟨h0, h1⟩ := (idx_fixed t).2.2.2.1
  show V m c main_arg6 (((cfg0.win 6).blk t).view.emb y) = _
  rw [V_main_arg6]
  exact congrArg _ (idx_of_origin h0 h1 _ _ rfl rfl)

/-- The block of argument 8 (the input gate's column on `c`) at any point is the whole array. -/
theorem blk8 (c : Dev nD) (t : Fin cfg0.N) : (iblk m c 8 t : Vec Ideal S512x1 .f32) = m ((c : Thread nD τ).loc main_arg8) := by
  funext y
  obtain ⟨h0, h1⟩ := (idx_fixed t).2.2.2.2.2.1
  show V m c main_arg8 (((cfg0.win 8).blk t).view.emb y) = _
  rw [V_main_arg8]
  exact congrArg _ (idx_of_origin h0 h1 _ _ rfl rfl)

/-- The block of argument 10 (the candidate's matrix on the moved state) at any point is the whole array. -/
theorem blk10 (c : Dev nD) (t : Fin cfg0.N) : (iblk m c 10 t : Vec Ideal S512x512 .f32) = m ((c : Thread nD τ).loc main_arg10) := by
  funext y
  obtain ⟨h0, h1⟩ := (idx_fixed t).2.2.2.2.2.2.2.1
  show V m c main_arg10 (((cfg0.win 10).blk t).view.emb y) = _
  rw [V_main_arg10]
  exact congrArg _ (idx_of_origin h0 h1 _ _ rfl rfl)

/-- The block of argument 12 (the candidate's matrix on `h`) at any point is the whole array. -/
theorem blk12 (c : Dev nD) (t : Fin cfg0.N) : (iblk m c 12 t : Vec Ideal S512x512 .f32) = m ((c : Thread nD τ).loc main_arg12) := by
  funext y
  obtain ⟨h0, h1⟩ := (idx_fixed t).2.2.2.2.2.2.2.2.2.1
  show V m c main_arg12 (((cfg0.win 12).blk t).view.emb y) = _
  rw [V_main_arg12]
  exact congrArg _ (idx_of_origin h0 h1 _ _ rfl rfl)

/-- The block of argument 14 (the output gate's column on the moved state) at any point is the whole array. -/
theorem blk14 (c : Dev nD) (t : Fin cfg0.N) : (iblk m c 14 t : Vec Ideal S512x1 .f32) = m ((c : Thread nD τ).loc main_arg14) := by
  funext y
  obtain ⟨h0, h1⟩ := (idx_fixed t).2.2.2.2.2.2.2.2.2.2.2.1
  show V m c main_arg14 (((cfg0.win 14).blk t).view.emb y) = _
  rw [V_main_arg14]
  exact congrArg _ (idx_of_origin h0 h1 _ _ rfl rfl)

/-- The block of argument 16 (the output gate's column on `h`) at any point is the whole array. -/
theorem blk16 (c : Dev nD) (t : Fin cfg0.N) : (iblk m c 16 t : Vec Ideal S512x1 .f32) = m ((c : Thread nD τ).loc main_arg16) := by
  funext y
  obtain ⟨h0, h1⟩ := (idx_fixed t).2.2.2.2.2.2.2.2.2.2.2.2.2.1
  show V m c main_arg16 (((cfg0.win 16).blk t).view.emb y) = _
  rw [V_main_arg16]
  exact congrArg _ (idx_of_origin h0 h1 _ _ rfl rfl)

/-- The block of argument 18 (the output gate's column on the new memory) at any point is the whole array. -/
theorem blk18 (c : Dev nD) (t : Fin cfg0.N) : (iblk m c 18 t : Vec Ideal S512x1 .f32) = m ((c : Thread nD τ).loc main_arg18) := by
  funext y
  obtain ⟨h0, h1⟩ := (idx_fixed t).2.2.2.2.2.2.2.2.2.2.2.2.2.2.2.1
  show V m c main_arg18 (((cfg0.win 18).blk t).view.emb y) = _
  rw [V_main_arg18]
  exact congrArg _ (idx_of_origin h0 h1 _ _ rfl rfl)

/-- The block of argument 20 (the attention's matrix on `h`) at any point is the whole array. -/
theorem blk20 (c : Dev nD) (t : Fin cfg0.N) : (iblk m c 20 t : Vec Ideal S512x512 .f32) = m ((c : Thread nD τ).loc main_arg20) := by
  funext y
  obtain ⟨h0, h1⟩ := (idx_fixed t).2.2.2.2.2.2.2.2.2.2.2.2.2.2.2.2.2.1
  show V m c main_arg20 (((cfg0.win 20).blk t).view.emb y) = _
  rw [V_main_arg20]
  exact congrArg _ (idx_of_origin h0 h1 _ _ rfl rfl)

/-- The block of argument 22 (the attention's matrix on the projected input) at any point is the whole array. -/
theorem blk22 (c : Dev nD) (t : Fin cfg0.N) : (iblk m c 22 t : Vec Ideal S512x512 .f32) = m ((c : Thread nD τ).loc main_arg22) := by
  funext y
  obtain ⟨h0, h1⟩ := (idx_fixed t).2.2.2.2.2.2.2.2.2.2.2.2.2.2.2.2.2.2.2.1
  show V m c main_arg22 (((cfg0.win 22).blk t).view.emb y) = _
  rw [V_main_arg22]
  exact congrArg _ (idx_of_origin h0 h1 _ _ rfl rfl)

/-- The block of argument 5 reshaped to one row (the input projection's bias), at any point, read along its row, is the argument. -/
theorem flat5 (c : Dev nD) (t : Fin cfg0.N) : flatOf (iblk m c 5 t : Mat 1 512) = vecOf (m ((c : Thread nD τ).loc main_arg5)) := by
  funext j
  obtain ⟨h0, h1⟩ := (idx_fixed t).2.2.1
  have e : (V m c main_v0 : S1x512.Idx → EReal) = shapeCast S1x512 (m ((c : Thread nD τ).loc main_arg5)) shapeCasts_S512_S1x512 := by
    dsimp only [Gen.V, Gen.hostOps0]; after_results; rfl
  show V m c main_v0 (((cfg0.win 5).blk t).view.emb (ix2 0 j)) = m ((c : Thread nD τ).loc main_arg5) (ix1 j)
  rw [e]
  exact (congrArg _ (idx_of_origin h0 h1 _ _ rfl rfl)).trans (shapeCast_a_1a_apply _ _ (0 : Fin 1) j)

/-- The block of argument 11 reshaped to one row (the candidate's first bias), at any point, read along its row, is the argument. -/
theorem flat11 (c : Dev nD) (t : Fin cfg0.N) : flatOf (iblk m c 11 t : Mat 1 512) = vecOf (m ((c : Thread nD τ).loc main_arg11)) := by
  funext j
  obtain ⟨h0, h1⟩ := (idx_fixed t).2.2.2.2.2.2.2.2.1
  have e : (V m c main_v3 : S1x512.Idx → EReal) = shapeCast S1x512 (m ((c : Thread nD τ).loc main_arg11)) shapeCasts_S512_S1x512 := by
    dsimp only [Gen.V, Gen.hostOps0]; after_results; rfl
  show V m c main_v3 (((cfg0.win 11).blk t).view.emb (ix2 0 j)) = m ((c : Thread nD τ).loc main_arg11) (ix1 j)
  rw [e]
  exact (congrArg _ (idx_of_origin h0 h1 _ _ rfl rfl)).trans (shapeCast_a_1a_apply _ _ (0 : Fin 1) j)

/-- The block of argument 13 reshaped to one row (the candidate's second bias), at any point, read along its row, is the argument. -/
theorem flat13 (c : Dev nD) (t : Fin cfg0.N) : flatOf (iblk m c 13 t : Mat 1 512) = vecOf (m ((c : Thread nD τ).loc main_arg13)) := by
  funext j
  obtain ⟨h0, h1⟩ := (idx_fixed t).2.2.2.2.2.2.2.2.2.2.1
  have e : (V m c main_v4 : S1x512.Idx → EReal) = shapeCast S1x512 (m ((c : Thread nD τ).loc main_arg13)) shapeCasts_S512_S1x512 := by
    dsimp only [Gen.V, Gen.hostOps0]; after_results; rfl
  show V m c main_v4 (((cfg0.win 13).blk t).view.emb (ix2 0 j)) = m ((c : Thread nD τ).loc main_arg13) (ix1 j)
  rw [e]
  exact (congrArg _ (idx_of_origin h0 h1 _ _ rfl rfl)).trans (shapeCast_a_1a_apply _ _ (0 : Fin 1) j)

/-- The block of argument 21 reshaped to one row (the attention's first bias), at any point, read along its row, is the argument. -/
theorem flat21 (c : Dev nD) (t : Fin cfg0.N) : flatOf (iblk m c 21 t : Mat 1 512) = vecOf (m ((c : Thread nD τ).loc main_arg21)) := by
  funext j
  obtain ⟨h0, h1⟩ := (idx_fixed t).2.2.2.2.2.2.2.2.2.2.2.2.2.2.2.2.2.2.1
  have e : (V m c main_v8 : S1x512.Idx → EReal) = shapeCast S1x512 (m ((c : Thread nD τ).loc main_arg21)) shapeCasts_S512_S1x512 := by
    dsimp only [Gen.V, Gen.hostOps0]; after_results; rfl
  show V m c main_v8 (((cfg0.win 21).blk t).view.emb (ix2 0 j)) = m ((c : Thread nD τ).loc main_arg21) (ix1 j)
  rw [e]
  exact (congrArg _ (idx_of_origin h0 h1 _ _ rfl rfl)).trans (shapeCast_a_1a_apply _ _ (0 : Fin 1) j)

/-- The block of argument 23 reshaped to one row (the attention's second bias), at any point, read along its row, is the argument. -/
theorem flat23 (c : Dev nD) (t : Fin cfg0.N) : flatOf (iblk m c 23 t : Mat 1 512) = vecOf (m ((c : Thread nD τ).loc main_arg23)) := by
  funext j
  obtain ⟨h0, h1⟩ := (idx_fixed t).2.2.2.2.2.2.2.2.2.2.2.2.2.2.2.2.2.2.2.2
  have e : (V m c main_v9 : S1x512.Idx → EReal) = shapeCast S1x512 (m ((c : Thread nD τ).loc main_arg23)) shapeCasts_S512_S1x512 := by
    dsimp only [Gen.V, Gen.hostOps0]; after_results; rfl
  show V m c main_v9 (((cfg0.win 23).blk t).view.emb (ix2 0 j)) = m ((c : Thread nD τ).loc main_arg23) (ix1 j)
  rw [e]
  exact (congrArg _ (idx_of_origin h0 h1 _ _ rfl rfl)).trans (shapeCast_a_1a_apply _ _ (0 : Fin 1) j)

/-- The block of argument 7 reshaped to one entry (the input gate's first bias), at any point, is the argument's entry. -/
theorem unit7 (c : Dev nD) (t : Fin cfg0.N) : unitOf (iblk m c 7 t : Mat 1 1) = oneOf (m ((c : Thread nD τ).loc main_arg7)) := by
  obtain ⟨h0, h1⟩ := (idx_fixed t).2.2.2.2.1
  have e : (V m c main_v1 : S1x1.Idx → EReal) = shapeCast S1x1 (m ((c : Thread nD τ).loc main_arg7)) shapeCasts_S1_S1x1 := by
    dsimp only [Gen.V, Gen.hostOps0]; after_results; rfl
  show V m c main_v1 (((cfg0.win 7).blk t).view.emb (ix2 0 0)) = m ((c : Thread nD τ).loc main_arg7) (ix1 0)
  rw [e]
  exact (congrArg _ (idx_of_origin h0 h1 _ _ rfl rfl)).trans (shapeCast_a_1a_apply _ _ (0 : Fin 1) (0 : Fin 1))

/-- The block of argument 9 reshaped to one entry (the input gate's second bias), at any point, is the argument's entry. -/
theorem unit9 (c : Dev nD) (t : Fin cfg0.N) : unitOf (iblk m c 9 t : Mat 1 1) = oneOf (m ((c : Thread nD τ).loc main_arg9)) := by
  obtain ⟨h0, h1⟩ := (idx_fixed t).2.2.2.2.2.2.1
  have e : (V m c main_v2 : S1x1.Idx → EReal) = shapeCast S1x1 (m ((c : Thread nD τ).loc main_arg9)) shapeCasts_S1_S1x1 := by
    dsimp only [Gen.V, Gen.hostOps0]; after_results; rfl
  show V m c main_v2 (((cfg0.win 9).blk t).view.emb (ix2 0 0)) = m ((c : Thread nD τ).loc main_arg9) (ix1 0)
  rw [e]
  exact (congrArg _ (idx_of_origin h0 h1 _ _ rfl rfl)).trans (shapeCast_a_1a_apply _ _ (0 : Fin 1) (0 : Fin 1))

/-- The block of argument 15 reshaped to one entry (the output gate's first bias), at any point, is the argument's entry. -/
theorem unit15 (c : Dev nD) (t : Fin cfg0.N) : unitOf (iblk m c 15 t : Mat 1 1) = oneOf (m ((c : Thread nD τ).loc main_arg15)) := by
  obtain ⟨h0, h1⟩ := (idx_fixed t).2.2.2.2.2.2.2.2.2.2.2.2.1
  have e : (V m c main_v5 : S1x1.Idx → EReal) = shapeCast S1x1 (m ((c : Thread nD τ).loc main_arg15)) shapeCasts_S1_S1x1 := by
    dsimp only [Gen.V, Gen.hostOps0]; after_results; rfl
  show V m c main_v5 (((cfg0.win 15).blk t).view.emb (ix2 0 0)) = m ((c : Thread nD τ).loc main_arg15) (ix1 0)
  rw [e]
  exact (congrArg _ (idx_of_origin h0 h1 _ _ rfl rfl)).trans (shapeCast_a_1a_apply _ _ (0 : Fin 1) (0 : Fin 1))

/-- The block of argument 17 reshaped to one entry (the output gate's second bias), at any point, is the argument's entry. -/
theorem unit17 (c : Dev nD) (t : Fin cfg0.N) : unitOf (iblk m c 17 t : Mat 1 1) = oneOf (m ((c : Thread nD τ).loc main_arg17)) := by
  obtain ⟨h0, h1⟩ := (idx_fixed t).2.2.2.2.2.2.2.2.2.2.2.2.2.2.1
  have e : (V m c main_v6 : S1x1.Idx → EReal) = shapeCast S1x1 (m ((c : Thread nD τ).loc main_arg17)) shapeCasts_S1_S1x1 := by
    dsimp only [Gen.V, Gen.hostOps0]; after_results; rfl
  show V m c main_v6 (((cfg0.win 17).blk t).view.emb (ix2 0 0)) = m ((c : Thread nD τ).loc main_arg17) (ix1 0)
  rw [e]
  exact (congrArg _ (idx_of_origin h0 h1 _ _ rfl rfl)).trans (shapeCast_a_1a_apply _ _ (0 : Fin 1) (0 : Fin 1))

/-- The block of argument 19 reshaped to one entry (the output gate's third bias), at any point, is the argument's entry. -/
theorem unit19 (c : Dev nD) (t : Fin cfg0.N) : unitOf (iblk m c 19 t : Mat 1 1) = oneOf (m ((c : Thread nD τ).loc main_arg19)) := by
  obtain ⟨h0, h1⟩ := (idx_fixed t).2.2.2.2.2.2.2.2.2.2.2.2.2.2.2.2.1
  have e : (V m c main_v7 : S1x1.Idx → EReal) = shapeCast S1x1 (m ((c : Thread nD τ).loc main_arg19)) shapeCasts_S1_S1x1 := by
    dsimp only [Gen.V, Gen.hostOps0]; after_results; rfl
  show V m c main_v7 (((cfg0.win 19).blk t).view.emb (ix2 0 0)) = m ((c : Thread nD τ).loc main_arg19) (ix1 0)
  rw [e]
  exact (congrArg _ (idx_of_origin h0 h1 _ _ rfl rfl)).trans (shapeCast_a_1a_apply _ _ (0 : Fin 1) (0 : Fin 1))

/-- The weights point `t` finds in its blocks are the weights of the argument arrays: every weight window is the whole
    array at every point, and a bias reshaped to one row reads the bias at its column. -/
theorem weights_eq (c : Dev nD) (t : Fin cfg0.N) :
    blockWeights (iblk m c 1 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) = argWeights m c := by
  show weightsOfRows _ _ _ _ _ _ _ _ _ _ _ _ _ _ _ _ _ _ _ _ _ = weightsOf _ _ _ _ _ _ _ _ _ _ _ _ _ _ _ _ _ _ _ _ _
  unfold weightsOfRows weightsOf
  rw [Weights.mk.injEq]
  exact ⟨congrArg matOf (blk1 m c t),
    congrArg matOf (blk4 m c t),
    flat5 m c t,
    congrArg colOf (blk6 m c t),
    unit7 m c t,
    congrArg colOf (blk8 m c t),
    unit9 m c t,
    congrArg matOf (blk10 m c t),
    flat11 m c t,
    congrArg matOf (blk12 m c t),
    flat13 m c t,
    congrArg colOf (blk14 m c t),
    unit15 m c t,
    congrArg colOf (blk16 m c t),
    unit17 m c t,
    congrArg colOf (blk18 m c t),
    unit19 m c t,
    congrArg matOf (blk20 m c t),
    flat21 m c t,
    congrArg matOf (blk22 m c t),
    flat23 m c t⟩

/-! ## The row windows

Row `r` of the block of `x̄`, `h` or `c` at point `t` is row `512 t + r` of the array, and entry `(r, j)` of a
result's block at point `t` is entry `(512 t + r, j)` of the result. -/

/-- Row `r` of the block of `x̄` at point `t`. -/
theorem row_x (c : Dev nD) (t : Fin cfg0.N) (r : Fin 512) :
    rowOf (iblk m c 0 t : Mat 512 1024) r = rowOf (m ((c : Thread nD τ).loc main_arg0)) (rowAt t r) := by
  funext k
  obtain ⟨h0, h1⟩ := (idx_moving t).1
  show V m c main_arg0 (((cfg0.win 0).blk t).view.emb (ix2 r k)) = m ((c : Thread nD τ).loc main_arg0) (ix2 (rowAt t r) k)
  rw [V_main_arg0]
  exact congrArg _ (idx_of_point h0 h1 _ r k rfl rfl)

/-- Row `r` of the block of `h` at point `t`. -/
theorem row_h (c : Dev nD) (t : Fin cfg0.N) (r : Fin 512) :
    rowOf (iblk m c 2 t : Mat 512 512) r = rowOf (m ((c : Thread nD τ).loc main_arg2)) (rowAt t r) := by
  funext k
  obtain ⟨h0, h1⟩ := (idx_moving t).2.1
  show V m c main_arg2 (((cfg0.win 2).blk t).view.emb (ix2 r k)) = m ((c : Thread nD τ).loc main_arg2) (ix2 (rowAt t r) k)
  rw [V_main_arg2]
  exact congrArg _ (idx_of_point h0 h1 _ r k rfl rfl)

/-- Row `r` of the block of `c` at point `t`. -/
theorem row_c (c : Dev nD) (t : Fin cfg0.N) (r : Fin 512) :
    rowOf (iblk m c 3 t : Mat 512 512) r = rowOf (m ((c : Thread nD τ).loc main_arg3)) (rowAt t r) := by
  funext k
  obtain ⟨h0, h1⟩ := (idx_moving t).2.2.1
  show V m c main_arg3 (((cfg0.win 3).blk t).view.emb (ix2 r k)) = m ((c : Thread nD τ).loc main_arg3) (ix2 (rowAt t r) k)
  rw [V_main_arg3]
  exact congrArg _ (idx_of_point h0 h1 _ r k rfl rfl)

/-- Where entry `(r, j)` of the new hidden states' block at point `t` sits in the array. -/
theorem emb24 (t : Fin cfg0.N) (r j : Fin 512) : ((cfg0.win 24).blk t).view.emb (ix2 r j) = ix2 (rowAt t r) j := by
  obtain ⟨h0, h1⟩ := (idx_moving t).2.2.2.1
  exact idx_of_point h0 h1 _ r j rfl rfl

/-- Where entry `(r, j)` of the new memories' block at point `t` sits in the array. -/
theorem emb25 (t : Fin cfg0.N) (r j : Fin 512) : ((cfg0.win 25).blk t).view.emb (ix2 r j) = ix2 (rowAt t r) j := by
  obtain ⟨h0, h1⟩ := (idx_moving t).2.2.2.2.1
  exact idx_of_point h0 h1 _ r j rfl rfl

/-- Where entry `(r, j)` of the attended mixtures' block at point `t` sits in the array. -/
theorem emb26 (t : Fin cfg0.N) (r j : Fin 512) : ((cfg0.win 26).blk t).view.emb (ix2 r j) = ix2 (rowAt t r) j := by
  obtain ⟨h0, h1⟩ := (idx_moving t).2.2.2.2.2
  exact idx_of_point h0 h1 _ r j rfl rfl

/-! ## What a point writes back -/

/-- What point `t` writes back to the array of new hidden states is block `t` of the cell of the argument arrays: entry
    `(r, j)` of the stored block is the cell's value for the block's row `r`, which is row `512 t + r` of the arrays. -/
theorem flushed24_eq (c : Dev nD) (t : Fin cfg0.N) :
    (dats m 0 c).flushed 24 t = ((cfg0.win 24).blk t).view.read (Elt Ideal) (hidArr (argWeights m c) (m ((c : Thread nD τ).loc main_arg0)) (m ((c : Thread nD τ).loc main_arg2)) (m ((c : Thread nD τ).loc main_arg3))) := by
  rw [Value.flushed24]
  refine (congrArg _ (out24_eq (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t))).trans ?_
  rw [weights_eq m c t]
  funext y
  obtain ⟨r, j, rfl⟩ : ∃ (r : Fin 512) (j : Fin 512), y = ix2 r j := ⟨y 0, y 1, eq_ix2 y⟩
  show hidArr (argWeights m c) (iblk m c 0 t) (iblk m c 2 t) (iblk m c 3 t) (ix2 r j) = hidArr (argWeights m c) (m ((c : Thread nD τ).loc main_arg0)) (m ((c : Thread nD τ).loc main_arg2)) (m ((c : Thread nD τ).loc main_arg3)) (((cfg0.win 24).blk t).view.emb (ix2 r j))
  rw [emb24, hidArr_apply, hidArr_apply, row_x, row_h, row_c]

/-- What point `t` writes back to the array of new memories is block `t` of the cell of the argument arrays: entry
    `(r, j)` of the stored block is the cell's value for the block's row `r`, which is row `512 t + r` of the arrays. -/
theorem flushed25_eq (c : Dev nD) (t : Fin cfg0.N) :
    (dats m 0 c).flushed 25 t = ((cfg0.win 25).blk t).view.read (Elt Ideal) (memArr (argWeights m c) (m ((c : Thread nD τ).loc main_arg0)) (m ((c : Thread nD τ).loc main_arg2)) (m ((c : Thread nD τ).loc main_arg3))) := by
  rw [Value.flushed25]
  refine (congrArg _ (out25_eq (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t))).trans ?_
  rw [weights_eq m c t]
  funext y
  obtain ⟨r, j, rfl⟩ : ∃ (r : Fin 512) (j : Fin 512), y = ix2 r j := ⟨y 0, y 1, eq_ix2 y⟩
  show memArr (argWeights m c) (iblk m c 0 t) (iblk m c 2 t) (iblk m c 3 t) (ix2 r j) = memArr (argWeights m c) (m ((c : Thread nD τ).loc main_arg0)) (m ((c : Thread nD τ).loc main_arg2)) (m ((c : Thread nD τ).loc main_arg3)) (((cfg0.win 25).blk t).view.emb (ix2 r j))
  rw [emb25, memArr_apply, memArr_apply, row_x, row_h, row_c]

/-- What point `t` writes back to the array of attended mixtures is block `t` of the cell of the argument arrays: entry
    `(r, j)` of the stored block is the cell's value for the block's row `r`, which is row `512 t + r` of the arrays. -/
theorem flushed26_eq (c : Dev nD) (t : Fin cfg0.N) :
    (dats m 0 c).flushed 26 t = ((cfg0.win 26).blk t).view.read (Elt Ideal) (mixArr (argWeights m c) (m ((c : Thread nD τ).loc main_arg0)) (m ((c : Thread nD τ).loc main_arg2))) := by
  rw [Value.flushed26]
  refine (congrArg _ (out26_eq (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t))).trans ?_
  rw [weights_eq m c t]
  funext y
  obtain ⟨r, j, rfl⟩ : ∃ (r : Fin 512) (j : Fin 512), y = ix2 r j := ⟨y 0, y 1, eq_ix2 y⟩
  show mixArr (argWeights m c) (iblk m c 0 t) (iblk m c 2 t) (ix2 r j) = mixArr (argWeights m c) (m ((c : Thread nD τ).loc main_arg0)) (m ((c : Thread nD τ).loc main_arg2)) (((cfg0.win 26).blk t).view.emb (ix2 r j))
  rw [emb26, mixArr_apply, mixArr_apply, row_x, row_h]

/-! ## The blocks cover the arrays -/

/-- An index of the array is in point `t`'s block iff each coordinate is in the block's range on its axis. -/
theorem mem_blk24 (t : Fin cfg0.N) (i : S32768x512.Idx) :
    i ∈ ((cfg0.win 24).blk t).view.set ↔ ∀ a : Fin 2, win0_24.index t a * S512x512.size a ≤ (i a).val ∧ (i a).val < win0_24.index t a * S512x512.size a + S512x512.size a := by
  show i ∈ ((View.whole main_v10_0).slice (win0_24.rect t)).set ↔ _
  rw [View.set_slice_whole, Rect.mem_set_unit]
  exact Iff.rfl

/-- Every index of the array is in the block of some point: row `r` is in the block of point `r / 512`. -/
theorem cover24 (i : S32768x512.Idx) : ∃ t : Fin cfg0.N, (cfg0.win 24).flush t = true ∧ i ∈ ((cfg0.win 24).blk t).view.set := by
  have hi0 : (i 0).val < 32768 := (i 0).isLt
  have hi1 : (i 1).val < 512 := (i 1).isLt
  have hN : cfg0.N = 64 := N_0
  have ht : (i 0).val / 512 < cfg0.N := by omega
  obtain ⟨h0, h1⟩ := (idx_moving ⟨(i 0).val / 512, ht⟩).2.2.2.1
  refine ⟨⟨(i 0).val / 512, ht⟩, flush0_24 _, ?_⟩
  rw [mem_blk24]
  intro a
  match a with
  | ⟨0, _⟩ => show win0_24.index ⟨(i 0).val / 512, ht⟩ (0 : Fin 2) * 512 ≤ (i 0).val ∧ (i 0).val < win0_24.index ⟨(i 0).val / 512, ht⟩ (0 : Fin 2) * 512 + 512; rw [h0]; show (i 0).val / 512 * 512 ≤ (i 0).val ∧ (i 0).val < (i 0).val / 512 * 512 + 512; omega
  | ⟨1, _⟩ => show win0_24.index ⟨(i 0).val / 512, ht⟩ (1 : Fin 2) * 512 ≤ (i 1).val ∧ (i 1).val < win0_24.index ⟨(i 0).val / 512, ht⟩ (1 : Fin 2) * 512 + 512; rw [h1]; omega

/-- An index of the array is in point `t`'s block iff each coordinate is in the block's range on its axis. -/
theorem mem_blk25 (t : Fin cfg0.N) (i : S32768x512.Idx) :
    i ∈ ((cfg0.win 25).blk t).view.set ↔ ∀ a : Fin 2, win0_25.index t a * S512x512.size a ≤ (i a).val ∧ (i a).val < win0_25.index t a * S512x512.size a + S512x512.size a := by
  show i ∈ ((View.whole main_v10_1).slice (win0_25.rect t)).set ↔ _
  rw [View.set_slice_whole, Rect.mem_set_unit]
  exact Iff.rfl

/-- Every index of the array is in the block of some point: row `r` is in the block of point `r / 512`. -/
theorem cover25 (i : S32768x512.Idx) : ∃ t : Fin cfg0.N, (cfg0.win 25).flush t = true ∧ i ∈ ((cfg0.win 25).blk t).view.set := by
  have hi0 : (i 0).val < 32768 := (i 0).isLt
  have hi1 : (i 1).val < 512 := (i 1).isLt
  have hN : cfg0.N = 64 := N_0
  have ht : (i 0).val / 512 < cfg0.N := by omega
  obtain ⟨h0, h1⟩ := (idx_moving ⟨(i 0).val / 512, ht⟩).2.2.2.2.1
  refine ⟨⟨(i 0).val / 512, ht⟩, flush0_25 _, ?_⟩
  rw [mem_blk25]
  intro a
  match a with
  | ⟨0, _⟩ => show win0_25.index ⟨(i 0).val / 512, ht⟩ (0 : Fin 2) * 512 ≤ (i 0).val ∧ (i 0).val < win0_25.index ⟨(i 0).val / 512, ht⟩ (0 : Fin 2) * 512 + 512; rw [h0]; show (i 0).val / 512 * 512 ≤ (i 0).val ∧ (i 0).val < (i 0).val / 512 * 512 + 512; omega
  | ⟨1, _⟩ => show win0_25.index ⟨(i 0).val / 512, ht⟩ (1 : Fin 2) * 512 ≤ (i 1).val ∧ (i 1).val < win0_25.index ⟨(i 0).val / 512, ht⟩ (1 : Fin 2) * 512 + 512; rw [h1]; omega

/-- An index of the array is in point `t`'s block iff each coordinate is in the block's range on its axis. -/
theorem mem_blk26 (t : Fin cfg0.N) (i : S32768x512.Idx) :
    i ∈ ((cfg0.win 26).blk t).view.set ↔ ∀ a : Fin 2, win0_26.index t a * S512x512.size a ≤ (i a).val ∧ (i a).val < win0_26.index t a * S512x512.size a + S512x512.size a := by
  show i ∈ ((View.whole main_v10_2).slice (win0_26.rect t)).set ↔ _
  rw [View.set_slice_whole, Rect.mem_set_unit]
  exact Iff.rfl

/-- Every index of the array is in the block of some point: row `r` is in the block of point `r / 512`. -/
theorem cover26 (i : S32768x512.Idx) : ∃ t : Fin cfg0.N, (cfg0.win 26).flush t = true ∧ i ∈ ((cfg0.win 26).blk t).view.set := by
  have hi0 : (i 0).val < 32768 := (i 0).isLt
  have hi1 : (i 1).val < 512 := (i 1).isLt
  have hN : cfg0.N = 64 := N_0
  have ht : (i 0).val / 512 < cfg0.N := by omega
  obtain ⟨h0, h1⟩ := (idx_moving ⟨(i 0).val / 512, ht⟩).2.2.2.2.2
  refine ⟨⟨(i 0).val / 512, ht⟩, flush0_26 _, ?_⟩
  rw [mem_blk26]
  intro a
  match a with
  | ⟨0, _⟩ => show win0_26.index ⟨(i 0).val / 512, ht⟩ (0 : Fin 2) * 512 ≤ (i 0).val ∧ (i 0).val < win0_26.index ⟨(i 0).val / 512, ht⟩ (0 : Fin 2) * 512 + 512; rw [h0]; show (i 0).val / 512 * 512 ≤ (i 0).val ∧ (i 0).val < (i 0).val / 512 * 512 + 512; omega
  | ⟨1, _⟩ => show win0_26.index ⟨(i 0).val / 512, ht⟩ (1 : Fin 2) * 512 ≤ (i 1).val ∧ (i 1).val < win0_26.index ⟨(i 0).val / 512, ht⟩ (1 : Fin 2) * 512 + 512; rw [h1]; omega

/-! ## The arrays after the run -/

/-- After the run the array of new hidden states is the cell of the argument arrays: every point writes its block of it, and the
    blocks cover the array. -/
theorem final24 (c : Dev nD) : (dats m 0 c).arrAt 24 cfg0.N = hidArr (argWeights m c) (m ((c : Thread nD τ).loc main_arg0)) (m ((c : Thread nD τ).loc main_arg2)) (m ((c : Thread nD τ).loc main_arg3)) :=
  (dats m 0 c).arrAt_eq_of_cover 24 _ (fun t _ => flushed24_eq m c t) cover24

/-- After the run the array of new memories is the cell of the argument arrays: every point writes its block of it, and the
    blocks cover the array. -/
theorem final25 (c : Dev nD) : (dats m 0 c).arrAt 25 cfg0.N = memArr (argWeights m c) (m ((c : Thread nD τ).loc main_arg0)) (m ((c : Thread nD τ).loc main_arg2)) (m ((c : Thread nD τ).loc main_arg3)) :=
  (dats m 0 c).arrAt_eq_of_cover 25 _ (fun t _ => flushed25_eq m c t) cover25

/-- After the run the array of attended mixtures is the cell of the argument arrays: every point writes its block of it, and the
    blocks cover the array. -/
theorem final26 (c : Dev nD) : (dats m 0 c).arrAt 26 cfg0.N = mixArr (argWeights m c) (m ((c : Thread nD τ).loc main_arg0)) (m ((c : Thread nD τ).loc main_arg2)) :=
  (dats m 0 c).arrAt_eq_of_cover 26 _ (fun t _ => flushed26_eq m c t) cover26

/-- The kernel's run with each result array named: the cell of the argument arrays, the arguments unchanged. -/
theorem run : θ_run (defs (F := Ideal)) (onTc (τ := τ) (main (F := Ideal))) ⟨m, fun _ => 0, ρ⟩ fun r => ∀ c : Dev nD,
      r.2.mem ((c : Thread nD τ).loc main_v10_0) = hidArr (argWeights m c) (m ((c : Thread nD τ).loc main_arg0)) (m ((c : Thread nD τ).loc main_arg2)) (m ((c : Thread nD τ).loc main_arg3))
      ∧ r.2.mem ((c : Thread nD τ).loc main_v10_1) = memArr (argWeights m c) (m ((c : Thread nD τ).loc main_arg0)) (m ((c : Thread nD τ).loc main_arg2)) (m ((c : Thread nD τ).loc main_arg3))
      ∧ r.2.mem ((c : Thread nD τ).loc main_v10_2) = mixArr (argWeights m c) (m ((c : Thread nD τ).loc main_arg0)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19)
      ∧ r.2.mem ((c : Thread nD τ).loc main_arg20) = m ((c : Thread nD τ).loc main_arg20)
      ∧ r.2.mem ((c : Thread nD τ).loc main_arg21) = m ((c : Thread nD τ).loc main_arg21)
      ∧ r.2.mem ((c : Thread nD τ).loc main_arg22) = m ((c : Thread nD τ).loc main_arg22)
      ∧ r.2.mem ((c : Thread nD τ).loc main_arg23) = m ((c : Thread nD τ).loc main_arg23) :=
  (θ_run (defs (F := Ideal)) _ _).mono (fun r h c => ⟨(h c).1.trans (final24 m c), (h c).2.1.trans (final25 m c),
      (h c).2.2.1.trans (final26 m c), (h c).2.2.2⟩) (Value.run_blocks m ρ)

end Cert.KernelIdeal.Blocks

end
-- ==== Proof.RefRows.lean ====
/-
  The reference is the gated cell, row by row.

  Read at an entry `(r, j)`, each of the reference's three results is the cell's value for batch row `r`: a `dot_general`
  contracting the left operand's columns with the right operand's rows is the sum over the contracted coordinate of the
  products, a bias vector broadcast along the rows is read at its column, the logistic function is spelt
  `1 / (1 + e^(-t))` with both ones the word of `1.0`, and every other operation acts entry by entry.
-/
import proofs.«109079_j2525440770621_1_alg».proof.Proof.Gen.ReferenceIdeal.Read
import proofs.«109079_j2525440770621_1_alg».proof.Proof.CellArrays

noncomputable section

namespace Cert.ReferenceIdeal.Rows

open Cert.ReferenceIdeal Cert.ReferenceIdeal.Gen Cert.ReferenceIdeal.Read Cert.GatedCell Idealize.ShloMosaic Idealize.ShloMosaic.ValueIdx

variable (x0 : (⟨S32768x1024, .f32⟩ : BufTy).Contents (Elt Ideal)) (x1 : (⟨S512x512, .f32⟩ : BufTy).Contents (Elt Ideal)) (x2 x3 : (⟨S32768x512, .f32⟩ : BufTy).Contents (Elt Ideal)) (x4 : (⟨S1024x512, .f32⟩ : BufTy).Contents (Elt Ideal)) (x5 : (⟨S512, .f32⟩ : BufTy).Contents (Elt Ideal)) (x6 : (⟨S512x1, .f32⟩ : BufTy).Contents (Elt Ideal)) (x7 : (⟨S1, .f32⟩ : BufTy).Contents (Elt Ideal)) (x8 : (⟨S512x1, .f32⟩ : BufTy).Contents (Elt Ideal)) (x9 : (⟨S1, .f32⟩ : BufTy).Contents (Elt Ideal)) (x10 : (⟨S512x512, .f32⟩ : BufTy).Contents (Elt Ideal)) (x11 : (⟨S512, .f32⟩ : BufTy).Contents (Elt Ideal)) (x12 : (⟨S512x512, .f32⟩ : BufTy).Contents (Elt Ideal)) (x13 : (⟨S512, .f32⟩ : BufTy).Contents (Elt Ideal)) (x14 : (⟨S512x1, .f32⟩ : BufTy).Contents (Elt Ideal)) (x15 : (⟨S1, .f32⟩ : BufTy).Contents (Elt Ideal)) (x16 : (⟨S512x1, .f32⟩ : BufTy).Contents (Elt Ideal)) (x17 : (⟨S1, .f32⟩ : BufTy).Contents (Elt Ideal)) (x18 : (⟨S512x1, .f32⟩ : BufTy).Contents (Elt Ideal)) (x19 : (⟨S1, .f32⟩ : BufTy).Contents (Elt Ideal)) (x20 : (⟨S512x512, .f32⟩ : BufTy).Contents (Elt Ideal)) (x21 : (⟨S512, .f32⟩ : BufTy).Contents (Elt Ideal)) (x22 : (⟨S512x512, .f32⟩ : BufTy).Contents (Elt Ideal)) (x23 : (⟨S512, .f32⟩ : BufTy).Contents (Elt Ideal))

/-- The weights the reference reads off its argument arrays. -/
local notation "𝕎" => weightsOf x1 x4 x5 x6 x7 x8 x9 x10 x11 x12 x13 x14 x15 x16 x17 x18 x19 x20 x21 x22 x23

/-! ### Where each operation reads its operands

  At an entry `(r, j)` of its result, a `dot_general` that contracts the left operand's columns with the right
  operand's rows reads the left operand at `(r, k)` and the right one at `(k, j)`. A bias vector is first laid out as
  a matrix of one row, read at `(0, j)` and there at `j`; a bias of length one is read at `0` from everywhere. A gate,
  an array of one column, is broadcast along the columns: entry `(r, j)` reads `(r, 0)`. -/

theorem lidx_v0 (r : Fin 32768) (j : Fin 512) (k : Fin 1024) : lidx_main_v0 (ix2 r j) k = ix2 r k :=
  funext fun a => Fin.ext (by match a with | ⟨0, _⟩ => rfl | ⟨1, _⟩ => rfl)
theorem ridx_v0 (r : Fin 32768) (j : Fin 512) (k : Fin 1024) : ridx_main_v0 (ix2 r j) k = ix2 k j :=
  funext fun a => Fin.ext (by match a with | ⟨0, _⟩ => rfl | ⟨1, _⟩ => rfl)
theorem lidx_v4 (r : Fin 32768) (j : Fin 512) (k : Fin 512) : lidx_main_v4 (ix2 r j) k = ix2 r k :=
  funext fun a => Fin.ext (by match a with | ⟨0, _⟩ => rfl | ⟨1, _⟩ => rfl)
theorem ridx_v4 (r : Fin 32768) (j : Fin 512) (k : Fin 512) : ridx_main_v4 (ix2 r j) k = ix2 k j :=
  funext fun a => Fin.ext (by match a with | ⟨0, _⟩ => rfl | ⟨1, _⟩ => rfl)
theorem lidx_v8 (r : Fin 32768) (j : Fin 512) (k : Fin 512) : lidx_main_v8 (ix2 r j) k = ix2 r k :=
  funext fun a => Fin.ext (by match a with | ⟨0, _⟩ => rfl | ⟨1, _⟩ => rfl)
theorem ridx_v8 (r : Fin 32768) (j : Fin 512) (k : Fin 512) : ridx_main_v8 (ix2 r j) k = ix2 k j :=
  funext fun a => Fin.ext (by match a with | ⟨0, _⟩ => rfl | ⟨1, _⟩ => rfl)
theorem lidx_v19 (r : Fin 32768) (j : Fin 512) (k : Fin 512) : lidx_main_v19 (ix2 r j) k = ix2 r k :=
  funext fun a => Fin.ext (by match a with | ⟨0, _⟩ => rfl | ⟨1, _⟩ => rfl)
theorem ridx_v19 (r : Fin 32768) (j : Fin 512) (k : Fin 512) : ridx_main_v19 (ix2 r j) k = ix2 k j :=
  funext fun a => Fin.ext (by match a with | ⟨0, _⟩ => rfl | ⟨1, _⟩ => rfl)
theorem lidx_v40 (r : Fin 32768) (j : Fin 512) (k : Fin 512) : lidx_main_v40 (ix2 r j) k = ix2 r k :=
  funext fun a => Fin.ext (by match a with | ⟨0, _⟩ => rfl | ⟨1, _⟩ => rfl)
theorem ridx_v40 (r : Fin 32768) (j : Fin 512) (k : Fin 512) : ridx_main_v40 (ix2 r j) k = ix2 k j :=
  funext fun a => Fin.ext (by match a with | ⟨0, _⟩ => rfl | ⟨1, _⟩ => rfl)
theorem lidx_v44 (r : Fin 32768) (j : Fin 512) (k : Fin 512) : lidx_main_v44 (ix2 r j) k = ix2 r k :=
  funext fun a => Fin.ext (by match a with | ⟨0, _⟩ => rfl | ⟨1, _⟩ => rfl)
theorem ridx_v44 (r : Fin 32768) (j : Fin 512) (k : Fin 512) : ridx_main_v44 (ix2 r j) k = ix2 k j :=
  funext fun a => Fin.ext (by match a with | ⟨0, _⟩ => rfl | ⟨1, _⟩ => rfl)
theorem lidx_v21 (r : Fin 32768) (k : Fin 512) : lidx_main_v21 (ix2 r (0 : Fin 1)) k = ix2 r k :=
  funext fun a => Fin.ext (by match a with | ⟨0, _⟩ => rfl | ⟨1, _⟩ => rfl)
theorem ridx_v21 (r : Fin 32768) (k : Fin 512) : ridx_main_v21 (ix2 r (0 : Fin 1)) k = ix2 k (0 : Fin 1) :=
  funext fun a => Fin.ext (by match a with | ⟨0, _⟩ => rfl | ⟨1, _⟩ => rfl)
theorem lidx_v25 (r : Fin 32768) (k : Fin 512) : lidx_main_v25 (ix2 r (0 : Fin 1)) k = ix2 r k :=
  funext fun a => Fin.ext (by match a with | ⟨0, _⟩ => rfl | ⟨1, _⟩ => rfl)
theorem ridx_v25 (r : Fin 32768) (k : Fin 512) : ridx_main_v25 (ix2 r (0 : Fin 1)) k = ix2 k (0 : Fin 1) :=
  funext fun a => Fin.ext (by match a with | ⟨0, _⟩ => rfl | ⟨1, _⟩ => rfl)
theorem lidx_v53 (r : Fin 32768) (k : Fin 512) : lidx_main_v53 (ix2 r (0 : Fin 1)) k = ix2 r k :=
  funext fun a => Fin.ext (by match a with | ⟨0, _⟩ => rfl | ⟨1, _⟩ => rfl)
theorem ridx_v53 (r : Fin 32768) (k : Fin 512) : ridx_main_v53 (ix2 r (0 : Fin 1)) k = ix2 k (0 : Fin 1) :=
  funext fun a => Fin.ext (by match a with | ⟨0, _⟩ => rfl | ⟨1, _⟩ => rfl)
theorem lidx_v57 (r : Fin 32768) (k : Fin 512) : lidx_main_v57 (ix2 r (0 : Fin 1)) k = ix2 r k :=
  funext fun a => Fin.ext (by match a with | ⟨0, _⟩ => rfl | ⟨1, _⟩ => rfl)
theorem ridx_v57 (r : Fin 32768) (k : Fin 512) : ridx_main_v57 (ix2 r (0 : Fin 1)) k = ix2 k (0 : Fin 1) :=
  funext fun a => Fin.ext (by match a with | ⟨0, _⟩ => rfl | ⟨1, _⟩ => rfl)
theorem lidx_v62 (r : Fin 32768) (k : Fin 512) : lidx_main_v62 (ix2 r (0 : Fin 1)) k = ix2 r k :=
  funext fun a => Fin.ext (by match a with | ⟨0, _⟩ => rfl | ⟨1, _⟩ => rfl)
theorem ridx_v62 (r : Fin 32768) (k : Fin 512) : ridx_main_v62 (ix2 r (0 : Fin 1)) k = ix2 k (0 : Fin 1) :=
  funext fun a => Fin.ext (by match a with | ⟨0, _⟩ => rfl | ⟨1, _⟩ => rfl)
theorem idx_v1 (z : Fin 1) (j : Fin 512) : idx_main_v1 (ix2 z j) = ix1 j :=
  funext fun a => Fin.ext (by match a with | ⟨0, _⟩ => rfl)
theorem idx_v2 (r : Fin 32768) (j : Fin 512) : idx_main_v2 (ix2 r j) = ix2 (0 : Fin 1) j :=
  funext fun a => Fin.ext (by match a with | ⟨0, _⟩ => rfl | ⟨1, _⟩ => rfl)
theorem idx_v5 (z : Fin 1) (j : Fin 512) : idx_main_v5 (ix2 z j) = ix1 j :=
  funext fun a => Fin.ext (by match a with | ⟨0, _⟩ => rfl)
theorem idx_v6 (r : Fin 32768) (j : Fin 512) : idx_main_v6 (ix2 r j) = ix2 (0 : Fin 1) j :=
  funext fun a => Fin.ext (by match a with | ⟨0, _⟩ => rfl | ⟨1, _⟩ => rfl)
theorem idx_v10 (z : Fin 1) (j : Fin 512) : idx_main_v10 (ix2 z j) = ix1 j :=
  funext fun a => Fin.ext (by match a with | ⟨0, _⟩ => rfl)
theorem idx_v11 (r : Fin 32768) (j : Fin 512) : idx_main_v11 (ix2 r j) = ix2 (0 : Fin 1) j :=
  funext fun a => Fin.ext (by match a with | ⟨0, _⟩ => rfl | ⟨1, _⟩ => rfl)
theorem idx_v41 (z : Fin 1) (j : Fin 512) : idx_main_v41 (ix2 z j) = ix1 j :=
  funext fun a => Fin.ext (by match a with | ⟨0, _⟩ => rfl)
theorem idx_v42 (r : Fin 32768) (j : Fin 512) : idx_main_v42 (ix2 r j) = ix2 (0 : Fin 1) j :=
  funext fun a => Fin.ext (by match a with | ⟨0, _⟩ => rfl | ⟨1, _⟩ => rfl)
theorem idx_v46 (z : Fin 1) (j : Fin 512) : idx_main_v46 (ix2 z j) = ix1 j :=
  funext fun a => Fin.ext (by match a with | ⟨0, _⟩ => rfl)
theorem idx_v47 (r : Fin 32768) (j : Fin 512) : idx_main_v47 (ix2 r j) = ix2 (0 : Fin 1) j :=
  funext fun a => Fin.ext (by match a with | ⟨0, _⟩ => rfl | ⟨1, _⟩ => rfl)
theorem idx_v22 (z w : Fin 1) : idx_main_v22 (ix2 z w) = ix1 (0 : Fin 1) :=
  funext fun a => Fin.ext (by match a with | ⟨0, _⟩ => rfl)
theorem idx_v23 (r : Fin 32768) (z : Fin 1) : idx_main_v23 (ix2 r z) = ix2 (0 : Fin 1) (0 : Fin 1) :=
  funext fun a => Fin.ext (by match a with | ⟨0, _⟩ => rfl | ⟨1, _⟩ => rfl)
theorem idx_v27 (z w : Fin 1) : idx_main_v27 (ix2 z w) = ix1 (0 : Fin 1) :=
  funext fun a => Fin.ext (by match a with | ⟨0, _⟩ => rfl)
theorem idx_v28 (r : Fin 32768) (z : Fin 1) : idx_main_v28 (ix2 r z) = ix2 (0 : Fin 1) (0 : Fin 1) :=
  funext fun a => Fin.ext (by match a with | ⟨0, _⟩ => rfl | ⟨1, _⟩ => rfl)
theorem idx_v54 (z w : Fin 1) : idx_main_v54 (ix2 z w) = ix1 (0 : Fin 1) :=
  funext fun a => Fin.ext (by match a with | ⟨0, _⟩ => rfl)
theorem idx_v55 (r : Fin 32768) (z : Fin 1) : idx_main_v55 (ix2 r z) = ix2 (0 : Fin 1) (0 : Fin 1) :=
  funext fun a => Fin.ext (by match a with | ⟨0, _⟩ => rfl | ⟨1, _⟩ => rfl)
theorem idx_v59 (z w : Fin 1) : idx_main_v59 (ix2 z w) = ix1 (0 : Fin 1) :=
  funext fun a => Fin.ext (by match a with | ⟨0, _⟩ => rfl)
theorem idx_v60 (r : Fin 32768) (z : Fin 1) : idx_main_v60 (ix2 r z) = ix2 (0 : Fin 1) (0 : Fin 1) :=
  funext fun a => Fin.ext (by match a with | ⟨0, _⟩ => rfl | ⟨1, _⟩ => rfl)
theorem idx_v64 (z w : Fin 1) : idx_main_v64 (ix2 z w) = ix1 (0 : Fin 1) :=
  funext fun a => Fin.ext (by match a with | ⟨0, _⟩ => rfl)
theorem idx_v65 (r : Fin 32768) (z : Fin 1) : idx_main_v65 (ix2 r z) = ix2 (0 : Fin 1) (0 : Fin 1) :=
  funext fun a => Fin.ext (by match a with | ⟨0, _⟩ => rfl | ⟨1, _⟩ => rfl)
theorem idx_v38 (r : Fin 32768) (j : Fin 512) : idx_main_v38 (ix2 r j) = ix2 r (0 : Fin 1) :=
  funext fun a => Fin.ext (by match a with | ⟨0, _⟩ => rfl | ⟨1, _⟩ => rfl)
theorem idx_v50 (r : Fin 32768) (j : Fin 512) : idx_main_v50 (ix2 r j) = ix2 r (0 : Fin 1) :=
  funext fun a => Fin.ext (by match a with | ⟨0, _⟩ => rfl | ⟨1, _⟩ => rfl)
theorem idx_v74 (r : Fin 32768) (j : Fin 512) : idx_main_v74 (ix2 r j) = ix2 r (0 : Fin 1) :=
  funext fun a => Fin.ext (by match a with | ⟨0, _⟩ => rfl | ⟨1, _⟩ => rfl)

/-! ### The named stages, entry by entry

  Each stage of the reference, read at row `r` (and column `j`), is the cell's value of that name for batch row `r`.
  The sums arrive in the association the cell is written in, so once every operand is read at its index the two sides
  are the same expression; the logistic function alone needs its defining equation. -/

/-- The projected input: the product of row `r` of `x̄` with `Wx`, plus the bias read at column `j`. -/
theorem v3_at (r : Fin 32768) (j : Fin 512) :
    val_main_v3 (F := Ideal) x0 x4 x5 (ix2 r j) = proj 𝕎 (rowOf x0 r) j := by
  rw [val_main_v3_apply, val_main_v0_apply, val_main_v2_apply, val_main_v1_apply, idx_v2, idx_v1]
  simp only [lidx_v0, ridx_v0]
  rfl

/-- The attention weights: the logistic function, spelt `1 / (1 + e^(-t))`, of the sum of the two products and the two biases; the second product contracts the projected input of the same row `r`. -/
theorem v18_at (r : Fin 32768) (j : Fin 512) :
    val_main_v18 (F := Ideal) x0 x2 x4 x5 x20 x21 x22 x23 (ix2 r j) = attn 𝕎 (rowOf x0 r) (rowOf x2 r) j := by
  rw [val_main_v18_apply, val_main_v17_apply, val_main_v16_apply, val_main_v15_apply, val_main_v14_apply, val_main_v13_apply, val_main_v12_apply, val_main_v9_apply, val_main_v7_apply, val_main_v4_apply, val_main_v6_apply, val_main_v5_apply, val_main_v8_apply, val_main_v11_apply, val_main_v10_apply, idx_v6, idx_v5, idx_v11, idx_v10]
  simp only [lidx_v4, ridx_v4, lidx_v8, ridx_v8, v3_at x0 x1 x4 x5 x6 x7 x8 x9 x10 x11 x12 x13 x14 x15 x16 x17 x18 x19 x20 x21 x22 x23]
  exact logistic_eq _

/-- The mixture: the attention weights of row `r` contracted with the relation vectors. -/
theorem v19_at (r : Fin 32768) (j : Fin 512) :
    val_main_v19 (F := Ideal) x0 x1 x2 x4 x5 x20 x21 x22 x23 (ix2 r j) = mix 𝕎 (rowOf x0 r) (rowOf x2 r) j := by
  rw [val_main_v19_apply]
  simp only [lidx_v19, ridx_v19, v18_at x0 x1 x2 x4 x5 x6 x7 x8 x9 x10 x11 x12 x13 x14 x15 x16 x17 x18 x19 x20 x21 x22 x23]
  rfl

/-- The moved hidden state: entry `(r, j)` of `h` plus the mixture's. -/
theorem v20_at (r : Fin 32768) (j : Fin 512) :
    val_main_v20 (F := Ideal) x0 x1 x2 x4 x5 x20 x21 x22 x23 (ix2 r j) = moved 𝕎 (rowOf x0 r) (rowOf x2 r) j := by
  rw [val_main_v20_apply, v19_at x0 x1 x2 x4 x5 x6 x7 x8 x9 x10 x11 x12 x13 x14 x15 x16 x17 x18 x19 x20 x21 x22 x23]
  rfl

/-- The input gate, an array of one column: its entry in row `r` is the gate of that row. -/
theorem v35_at (r : Fin 32768) :
    val_main_v35 (F := Ideal) x2 x3 x6 x7 x8 x9 (ix2 r (0 : Fin 1)) = inGate 𝕎 (rowOf x2 r) (rowOf x3 r) := by
  rw [val_main_v35_apply, val_main_v34_apply, val_main_v33_apply, val_main_v32_apply, val_main_v31_apply, val_main_v30_apply, val_main_v29_apply, val_main_v26_apply, val_main_v24_apply, val_main_v21_apply, val_main_v23_apply, val_main_v22_apply, val_main_v25_apply, val_main_v28_apply, val_main_v27_apply, idx_v23, idx_v22, idx_v28, idx_v27]
  simp only [lidx_v21, ridx_v21, lidx_v25, ridx_v25]
  exact logistic_eq _

/-- The candidate memory: the hyperbolic tangent of the sum of the two products and the two biases; the first product contracts the moved hidden state of the same row `r`. -/
theorem v49_at (r : Fin 32768) (j : Fin 512) :
    val_main_v49 (F := Ideal) x0 x1 x2 x4 x5 x10 x11 x12 x13 x20 x21 x22 x23 (ix2 r j) = cand 𝕎 (rowOf x0 r) (rowOf x2 r) j := by
  rw [val_main_v49_apply, val_main_v48_apply, val_main_v45_apply, val_main_v43_apply, val_main_v40_apply, val_main_v42_apply, val_main_v41_apply, val_main_v44_apply, val_main_v47_apply, val_main_v46_apply, idx_v42, idx_v41, idx_v47, idx_v46]
  simp only [lidx_v40, ridx_v40, lidx_v44, ridx_v44, v20_at x0 x1 x2 x4 x5 x6 x7 x8 x9 x10 x11 x12 x13 x14 x15 x16 x17 x18 x19 x20 x21 x22 x23]
  rfl

/-- The new memory: the gate's column is read at row `r` whatever the column `j`, and the word of `1.0` is the number one. -/
theorem v52_at (r : Fin 32768) (j : Fin 512) :
    val_main_v52 (F := Ideal) x0 x1 x2 x3 x4 x5 x6 x7 x8 x9 x10 x11 x12 x13 x20 x21 x22 x23 (ix2 r j) = newMem 𝕎 (rowOf x0 r) (rowOf x2 r) (rowOf x3 r) j := by
  rw [val_main_v52_apply, val_main_v39_apply, val_main_v38_apply, val_main_v37_apply, val_main_v36_apply, val_main_v51_apply, val_main_v50_apply, idx_v38, idx_v50, v35_at x1 x2 x3 x4 x5 x6 x7 x8 x9 x10 x11 x12 x13 x14 x15 x16 x17 x18 x19 x20 x21 x22 x23, v49_at x0 x1 x2 x4 x5 x6 x7 x8 x9 x10 x11 x12 x13 x14 x15 x16 x17 x18 x19 x20 x21 x22 x23]
  show (Ideal.ofBits .f32 0x3F800000#32 - _) * _ + _ * _ = _
  rw [ofBits_one]
  rfl

/-- The output gate, an array of one column: its three products contract row `r` of the moved hidden state, of `h` and of the new memory. -/
theorem v72_at (r : Fin 32768) :
    val_main_v72 (F := Ideal) x0 x1 x2 x3 x4 x5 x6 x7 x8 x9 x10 x11 x12 x13 x14 x15 x16 x17 x18 x19 x20 x21 x22 x23 (ix2 r (0 : Fin 1)) = outGate 𝕎 (rowOf x0 r) (rowOf x2 r) (rowOf x3 r) := by
  rw [val_main_v72_apply, val_main_v71_apply, val_main_v70_apply, val_main_v69_apply, val_main_v68_apply, val_main_v67_apply, val_main_v66_apply, val_main_v63_apply, val_main_v61_apply, val_main_v58_apply, val_main_v56_apply, val_main_v53_apply, val_main_v55_apply, val_main_v54_apply, val_main_v57_apply, val_main_v60_apply, val_main_v59_apply, val_main_v62_apply, val_main_v65_apply, val_main_v64_apply, idx_v55, idx_v54, idx_v60, idx_v59, idx_v65, idx_v64]
  simp only [lidx_v53, ridx_v53, lidx_v57, ridx_v57, lidx_v62, ridx_v62, v20_at x0 x1 x2 x4 x5 x6 x7 x8 x9 x10 x11 x12 x13 x14 x15 x16 x17 x18 x19 x20 x21 x22 x23, v52_at x0 x1 x2 x3 x4 x5 x6 x7 x8 x9 x10 x11 x12 x13 x14 x15 x16 x17 x18 x19 x20 x21 x22 x23]
  exact logistic_eq _

/-- The new hidden state: the output gate of row `r` times the hyperbolic tangent of the new memory's entry `(r, j)`. -/
theorem v75_at (r : Fin 32768) (j : Fin 512) :
    val_main_v75 (F := Ideal) x0 x1 x2 x3 x4 x5 x6 x7 x8 x9 x10 x11 x12 x13 x14 x15 x16 x17 x18 x19 x20 x21 x22 x23 (ix2 r j) = newHid 𝕎 (rowOf x0 r) (rowOf x2 r) (rowOf x3 r) j := by
  rw [val_main_v75_apply, val_main_v74_apply, val_main_v73_apply, idx_v74, v72_at x0 x1 x2 x3 x4 x5 x6 x7 x8 x9 x10 x11 x12 x13 x14 x15 x16 x17 x18 x19 x20 x21 x22 x23, v52_at x0 x1 x2 x3 x4 x5 x6 x7 x8 x9 x10 x11 x12 x13 x14 x15 x16 x17 x18 x19 x20 x21 x22 x23]
  rfl

/-! ### The three results as whole arrays -/

/-- The reference's first result: the new hidden states. -/
theorem v75_eq : val_main_v75 (F := Ideal) x0 x1 x2 x3 x4 x5 x6 x7 x8 x9 x10 x11 x12 x13 x14 x15 x16 x17 x18 x19 x20 x21 x22 x23 = hidArr (weightsOf x1 x4 x5 x6 x7 x8 x9 x10 x11 x12 x13 x14 x15 x16 x17 x18 x19 x20 x21 x22 x23) x0 x2 x3 := by
  funext i
  obtain ⟨r, j, rfl⟩ : ∃ (r : Fin 32768) (j : Fin 512), i = ix2 r j := ⟨i 0, i 1, eq_ix2 i⟩
  exact v75_at x0 x1 x2 x3 x4 x5 x6 x7 x8 x9 x10 x11 x12 x13 x14 x15 x16 x17 x18 x19 x20 x21 x22 x23 r j

/-- The reference's second result: the new memories. -/
theorem v52_eq : val_main_v52 (F := Ideal) x0 x1 x2 x3 x4 x5 x6 x7 x8 x9 x10 x11 x12 x13 x20 x21 x22 x23 = memArr (weightsOf x1 x4 x5 x6 x7 x8 x9 x10 x11 x12 x13 x14 x15 x16 x17 x18 x19 x20 x21 x22 x23) x0 x2 x3 := by
  funext i
  obtain ⟨r, j, rfl⟩ : ∃ (r : Fin 32768) (j : Fin 512), i = ix2 r j := ⟨i 0, i 1, eq_ix2 i⟩
  exact v52_at x0 x1 x2 x3 x4 x5 x6 x7 x8 x9 x10 x11 x12 x13 x14 x15 x16 x17 x18 x19 x20 x21 x22 x23 r j

/-- The reference's third result: the attended mixtures. -/
theorem v19_eq : val_main_v19 (F := Ideal) x0 x1 x2 x4 x5 x20 x21 x22 x23 = mixArr (weightsOf x1 x4 x5 x6 x7 x8 x9 x10 x11 x12 x13 x14 x15 x16 x17 x18 x19 x20 x21 x22 x23) x0 x2 := by
  funext i
  obtain ⟨r, j, rfl⟩ : ∃ (r : Fin 32768) (j : Fin 512), i = ix2 r j := ⟨i 0, i 1, eq_ix2 i⟩
  exact v19_at x0 x1 x2 x4 x5 x6 x7 x8 x9 x10 x11 x12 x13 x14 x15 x16 x17 x18 x19 x20 x21 x22 x23 r j

end Cert.ReferenceIdeal.Rows

end
-- ==== Proof.lean ====
/-
  The gated path-walker cell: a kernel that tiles 32768 batch rows into 64 blocks of 512 against a plain reference.

  For every batch row both programs compute, on the extended reals, the same cell (Proof/Cell.lean): a projected input,
  an attention over the relation vectors, the hidden state moved by the attended mixture, an input gate, a candidate and
  a new memory, an output gate and a new hidden state; the results are the new hidden states, the new memories and the
  mixtures. The two programs write every sum in the same association, the kernel's matrix products into a zero
  accumulator are the reference's contractions, its changes of float format are the identity on the extended reals, and
  its logistic is the reference's `1 / (1 + e^(-t))`: so the two sides meet entry by entry with no algebraic law, and the
  precondition is never opened.

  Proof/KerRows.lean reads the kernel body's three stored blocks at an entry: one grid point is the cell on 512 rows.
  Proof/Blocks.lean carries that from the 64 grid points to the whole arrays: the cell acts row by row, point `t` holds
  rows `512 t … 512 t + 511`, and the blocks cover every row. Proof/RefRows.lean reads the reference's three results at
  an entry: the cell, row by row. Here the two runs are set side by side. The three frames are the kernels' generated
  frame runs and the reference's generated run with its results dropped; nothing was idealized in the kernel beyond the
  instance, so the idealization's ledger is empty.
-/
import proofs.«109079_j2525440770621_1_alg».proof.Defs
import proofs.«109079_j2525440770621_1_alg».proof.Proof.Gen.Kernel
import proofs.«109079_j2525440770621_1_alg».proof.Proof.Gen.Kernel.Frame
import proofs.«109079_j2525440770621_1_alg».proof.Proof.Gen.KernelIdeal
import proofs.«109079_j2525440770621_1_alg».proof.Proof.Gen.KernelIdeal.Frame
import proofs.«109079_j2525440770621_1_alg».proof.Proof.Gen.KernelIdeal.Value
import proofs.«109079_j2525440770621_1_alg».proof.Proof.Gen.ReferenceIdeal
import proofs.«109079_j2525440770621_1_alg».proof.Proof.Gen.ReferenceIdeal.Run
import proofs.«109079_j2525440770621_1_alg».proof.Proof.Gen.ReferenceIdeal.Read
import proofs.«109079_j2525440770621_1_alg».proof.Proof.Gen.Pre_finite_inputs
import proofs.«109079_j2525440770621_1_alg».proof.Proof.Blocks
import proofs.«109079_j2525440770621_1_alg».proof.Proof.RefRows
import Idealize.ShloMosaic.Adequacy
import Idealize.ShloMosaic.Init

noncomputable section

namespace Cert.Proof

open Idealize.ShloMosaic Idealize.SL.Sem Cert.GatedCell

namespace CellClaims

/-- The kernel at the word level terminates without a fault and leaves its arguments unchanged. -/
theorem frame_k : Cert.frame_Kernel := fun m ρ _ => Cert.Kernel.Gen.frame m ρ

/-- So does the kernel on the extended reals. -/
theorem frame_ki : Cert.frame_KernelIdeal := fun m ρ _ => Cert.KernelIdeal.Gen.frame m ρ

/-- So does the reference: its run, with the three results dropped. -/
theorem frame_ri : Cert.frame_ReferenceIdeal := fun m ρ _ =>
  (θ_run Cert.ReferenceIdeal.defs _ _).mono (fun _ h c => (h c).2.2.2) (Cert.ReferenceIdeal.Value.run (F := Ideal) m ρ)

/-- Nothing of the kernel was rewritten when it was read on the extended reals. -/
theorem preserves : Cert.preserves_Kernel_KernelIdeal := trivial

set_option maxHeartbeats 4000000 in
/-- From arguments that agree, the kernel's three result arrays and the reference's are the cell of those arguments:
    the new hidden states, the new memories and the mixtures, entry by entry. -/
theorem algebraic : Cert.algebraic_KernelIdeal_ReferenceIdeal := by
  intro m ρ m' ρ' _ hagree
  refine ⟨_, _, _, Cert.KernelIdeal.Blocks.run m ρ, ?_⟩
  refine (θ_run Cert.ReferenceIdeal.defs _ _).mono (fun r h c => ?_) (Cert.ReferenceIdeal.Value.run (F := Ideal) m' ρ')
  obtain ⟨e0, e1, e2, e3, e4, e5, e6, e7, e8, e9, e10, e11, e12, e13, e14, e15, e16, e17, e18, e19, e20, e21, e22, e23⟩ := hagree c
  refine ⟨?_, ?_, ?_, (h c).2.2.2⟩
  · rw [(h c).1, Cert.ReferenceIdeal.Read.val_main_v75_eq,
      Cert.ReferenceIdeal.Rows.v75_eq (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)) (m' ((c.tc : Thread Cert.ReferenceIdeal.nD Cert.ReferenceIdeal.τ).loc Cert.ReferenceIdeal.main_arg19)) (m' ((c.tc : Thread Cert.ReferenceIdeal.nD Cert.ReferenceIdeal.τ).loc Cert.ReferenceIdeal.main_arg20)) (m' ((c.tc : Thread Cert.ReferenceIdeal.nD Cert.ReferenceIdeal.τ).loc Cert.ReferenceIdeal.main_arg21)) (m' ((c.tc : Thread Cert.ReferenceIdeal.nD Cert.ReferenceIdeal.τ).loc Cert.ReferenceIdeal.main_arg22)) (m' ((c.tc : Thread Cert.ReferenceIdeal.nD Cert.ReferenceIdeal.τ).loc Cert.ReferenceIdeal.main_arg23)),
      e0, e1, e2, e3, e4, e5, e6, e7, e8, e9, e10, e11, e12, e13, e14, e15, e16, e17, e18, e19, e20, e21, e22, e23]
  · rw [(h c).2.1, Cert.ReferenceIdeal.Read.val_main_v52_eq,
      Cert.ReferenceIdeal.Rows.v52_eq (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)) (m' ((c.tc : Thread Cert.ReferenceIdeal.nD Cert.ReferenceIdeal.τ).loc Cert.ReferenceIdeal.main_arg19)) (m' ((c.tc : Thread Cert.ReferenceIdeal.nD Cert.ReferenceIdeal.τ).loc Cert.ReferenceIdeal.main_arg20)) (m' ((c.tc : Thread Cert.ReferenceIdeal.nD Cert.ReferenceIdeal.τ).loc Cert.ReferenceIdeal.main_arg21)) (m' ((c.tc : Thread Cert.ReferenceIdeal.nD Cert.ReferenceIdeal.τ).loc Cert.ReferenceIdeal.main_arg22)) (m' ((c.tc : Thread Cert.ReferenceIdeal.nD Cert.ReferenceIdeal.τ).loc Cert.ReferenceIdeal.main_arg23)),
      e0, e1, e2, e3, e4, e5, e6, e7, e8, e9, e10, e11, e12, e13, e14, e15, e16, e17, e18, e19, e20, e21, e22, e23]
  · rw [(h c).2.2.1, Cert.ReferenceIdeal.Read.val_main_v19_eq,
      Cert.ReferenceIdeal.Rows.v19_eq (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)) (m' ((c.tc : Thread Cert.ReferenceIdeal.nD Cert.ReferenceIdeal.τ).loc Cert.ReferenceIdeal.main_arg19)) (m' ((c.tc : Thread Cert.ReferenceIdeal.nD Cert.ReferenceIdeal.τ).loc Cert.ReferenceIdeal.main_arg20)) (m' ((c.tc : Thread Cert.ReferenceIdeal.nD Cert.ReferenceIdeal.τ).loc Cert.ReferenceIdeal.main_arg21)) (m' ((c.tc : Thread Cert.ReferenceIdeal.nD Cert.ReferenceIdeal.τ).loc Cert.ReferenceIdeal.main_arg22)) (m' ((c.tc : Thread Cert.ReferenceIdeal.nD Cert.ReferenceIdeal.τ).loc Cert.ReferenceIdeal.main_arg23)),
      e0, e1, e2, e4, e5, e6, e7, e8, e9, e10, e11, e12, e13, e14, e15, e16, e17, e18, e19, e20, e21, e22, e23]

end CellClaims

theorem claim : Cert.Claim :=
  ⟨Cert.Kernel.Gen.facts, Cert.KernelIdeal.Gen.facts, Cert.ReferenceIdeal.Gen.facts, Cert.Pre_finite_inputs.Gen.facts,
    CellClaims.frame_k, CellClaims.frame_ki, CellClaims.frame_ri, CellClaims.preserves, CellClaims.algebraic⟩

end Cert.Proof

end
